-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x26x16 : Shape := ⟨3, ![1024, 26, 16]⟩
abbrev S1024x100000 : Shape := ⟨2, ![1024, 100000]⟩
abbrev S100000x16 : Shape := ⟨2, ![100000, 16]⟩
abbrev S_ : Shape := ⟨0, ![]⟩

class Facts : Prop where
  bcast_S_S1024x26x16 : S_.BroadcastsInDim S1024x26x16 (![] : Fin 0 → Fin S1024x26x16.rank)
  reducesTo_S1024x26x16_S_d0_1_2 : S1024x26x16.ReducesTo [0, 1, 2] S_
  h_S_ : 0 < S_.numel
  bcast_S_S1024x100000 : S_.BroadcastsInDim S1024x100000 (![] : Fin 0 → Fin S1024x100000.rank)
  reducesTo_S1024x100000_S_d0_1 : S1024x100000.ReducesTo [0, 1] S_
  bcast_S_S100000x16 : S_.BroadcastsInDim S100000x16 (![] : Fin 0 → Fin S100000x16.rank)
  reducesTo_S100000x16_S_d0_1 : S100000x16.ReducesTo [0, 1] S_

variable [Facts]

def fn {F : FTy → Type} [FloatOps F] (main_arg0 : FVec F S1024x26x16 .f32) (main_arg1 : FVec F S1024x100000 .f32) (main_arg2 : FVec F S100000x16 .f32) : IVec S_ 1 :=
  let main_v0 : FVec F S1024x26x16 .f32 := Host.absf main_arg0
  let main_cst : FVec F S_ .f32 := constant S_ .f32 0x7F800000#32
  let main_v1 : FVec F S1024x26x16 .f32 := broadcastInDim S1024x26x16 ![] bcast_S_S1024x26x16 main_cst
  let main_v2 : IVec S1024x26x16 1 := cmpf .olt main_v0 main_v1
  let main_c : IVec S_ 1 := constantI S_ 1 1#1
  let main_v3 : IVec S_ 1 := (fun x v => Host.reduce IntOp.andi x v reducesTo_S1024x26x16_S_d0_1_2 h_S_) main_v2 main_c
  let main_v4 : FVec F S1024x100000 .f32 := Host.absf main_arg1
  let main_cst_0 : FVec F S_ .f32 := constant S_ .f32 0x7F800000#32
  let main_v5 : FVec F S1024x100000 .f32 := broadcastInDim S1024x100000 ![] bcast_S_S1024x100000 main_cst_0
  let main_v6 : IVec S1024x100000 1 := cmpf .olt main_v4 main_v5
  let main_c_1 : IVec S_ 1 := constantI S_ 1 1#1
  let main_v7 : IVec S_ 1 := (fun x v => Host.reduce IntOp.andi x v reducesTo_S1024x100000_S_d0_1 h_S_) main_v6 main_c_1
  let main_v8 : IVec S_ 1 := andi main_v3 main_v7
  let main_v9 : FVec F S100000x16 .f32 := Host.absf main_arg2
  let main_cst_2 : FVec F S_ .f32 := constant S_ .f32 0x7F800000#32
  let main_v10 : FVec F S100000x16 .f32 := broadcastInDim S100000x16 ![] bcast_S_S100000x16 main_cst_2
  let main_v11 : IVec S100000x16 1 := cmpf .olt main_v9 main_v10
  let main_c_3 : IVec S_ 1 := constantI S_ 1 1#1
  let main_v12 : IVec S_ 1 := (fun x v => Host.reduce IntOp.andi x v reducesTo_S100000x16_S_d0_1 h_S_) main_v11 main_c_3
  let main_v13 : IVec S_ 1 := andi main_v8 main_v12
  main_v13
-- ==== Kernel.lean ====
abbrev S1024x26x16 : Shape := ⟨3, ![1024, 26, 16]⟩
abbrev S1024x100000 : Shape := ⟨2, ![1024, 100000]⟩
abbrev S100000x16 : Shape := ⟨2, ![100000, 16]⟩
abbrev S100000x1024 : Shape := ⟨2, ![100000, 1024]⟩
abbrev S16x100000 : Shape := ⟨2, ![16, 100000]⟩
abbrev S26x16x1024 : Shape := ⟨3, ![26, 16, 1024]⟩
abbrev S26x1024 : Shape := ⟨2, ![26, 1024]⟩
abbrev S2048x1024 : Shape := ⟨2, ![2048, 1024]⟩
abbrev S16x2048 : Shape := ⟨2, ![16, 2048]⟩
abbrev S16x1024 : Shape := ⟨2, ![16, 1024]⟩
abbrev S1x16x1024 : Shape := ⟨3, ![1, 16, 1024]⟩
abbrev S1024x26 : Shape := ⟨2, ![1024, 26]⟩

abbrev nBuf : Space → Nat
  | .hbm => 8
  | .vmem => 7
  | .smem => 0
  | _ => 0

abbrev bufTy : (tb : Table) → Fin (tcTables nBuf tb) → BufTy
  | .hbm, ⟨0, _⟩ => ⟨S1024x26x16, .f32⟩
  | .hbm, ⟨1, _⟩ => ⟨S1024x100000, .f32⟩
  | .hbm, ⟨2, _⟩ => ⟨S100000x16, .f32⟩
  | .hbm, ⟨3, _⟩ => ⟨S100000x1024, .f32⟩
  | .hbm, ⟨4, _⟩ => ⟨S16x100000, .f32⟩
  | .hbm, ⟨5, _⟩ => ⟨S26x16x1024, .f32⟩
  | .hbm, ⟨6, _⟩ => ⟨S26x1024, .f32⟩
  | .hbm, ⟨7, _⟩ => ⟨S1024x26, .f32⟩
  | .local _ .vmem, ⟨0, _⟩ => ⟨S26x16x1024, .f32⟩
  | .local _ .vmem, ⟨1, _⟩ => ⟨S2048x1024, .f32⟩
  | .local _ .vmem, ⟨2, _⟩ => ⟨S2048x1024, .f32⟩
  | .local _ .vmem, ⟨3, _⟩ => ⟨S16x2048, .f32⟩
  | .local _ .vmem, ⟨4, _⟩ => ⟨S16x2048, .f32⟩
  | .local _ .vmem, ⟨5, _⟩ => ⟨S26x1024, .f32⟩
  | .local _ .vmem, ⟨6, _⟩ => ⟨S16x1024, .f32⟩
  | _, _ => ⟨S1024x26x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![49], ![false]⟩

def k0_cond4 (i : grid0.Coords) : BitVec 1 :=
  let arg0 : BitVec 32 := BitVec.ofNat 32 (i 0).val
  let c48_i32_7 : BitVec 32 := 48#32
  let v13 : BitVec 1 := Scalar.cmpi .eq arg0 c48_i32_7
  let v14 : BitVec 32 := Scalar.extui v13
  let c0_i32_8 : BitVec 32 := 0#32
  let v15 : BitVec 1 := Scalar.cmpi .ne v14 c0_i32_8
  v15

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S26x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S26x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  transposes_S1024x100000_S100000x1024_1_0 : S1024x100000.Transposes [1, 0] S100000x1024
  transposes_S100000x16_S16x100000_1_0 : S100000x16.Transposes [1, 0] S16x100000
  transposes_S1024x26x16_S26x16x1024_1_2_0 : S1024x26x16.Transposes [1, 2, 0] S26x16x1024
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  iota_S2048x1024_d0_w32 : S2048x1024.Iotas .tc 32 [0]
  iota_S16x2048_d1_w32 : S16x2048.Iotas .tc 32 [1]
  inb_S26x16x1024_S26x16x1024_0_0_0 : ∀ a, (![0, 0, 0] : Fin 3 → Nat) a + S26x16x1024.size a ≤ S26x16x1024.size a
  h_S26x16x1024 : 0 < S26x16x1024.numel
  shapeCasts_S26x16x1024_S26x16x1024 : S26x16x1024.ShapeCasts S26x16x1024
  shapeCasts_S16x1024_S1x16x1024 : S16x1024.ShapeCasts S1x16x1024
  broadcasts_S1x16x1024_S26x16x1024 : S1x16x1024.Broadcasts S26x16x1024
  reduces_S26x16x1024_S26x1024 : S26x16x1024.Reduces [1] S26x1024
  inb_S26x1024_S26x1024_0_0 : ∀ a, (![0, 0] : Fin 2 → Nat) a + S26x1024.size a ≤ S26x1024.size a
  h_S26x1024 : 0 < S26x1024.numel
  transposes_S26x1024_S1024x26_1_0 : S26x1024.Transposes [1, 0] S1024x26
  dot_S16x2048_S2048x1024_S16x1024_1_0_0_1_n_n_wf : DotDims.WF S16x2048 S2048x1024 S16x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S26x16x1024.size a ≤ S26x16x1024.size a
  hwx0_0 : ∀ i : grid0.Coords, EltTy.bits .f32 = 32 ∨ (Rect.block (s := S26x16x1024) S26x16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x1024.size a < S100000x1024.size a
  hwx0_1 : ∀ i : grid0.Coords, EltTy.bits .f32 = 32 ∨ (Rect.unit (s := S100000x1024) (fun a => cc0_transform_1 i a * S2048x1024.size a) (fun a => (Pipeline.Clip.of (cc0_transform_1 i a) (S2048x1024.size a) (S100000x1024.size a)).extent (S2048x1024.size a)) fun a => Pipeline.Clip.inb (Pipeline.Clip.ok_of (hstart0_1 i a))).WholeWords (EltTy.packing .f32)
  hwxs0_1 : ∀ i : grid0.Coords, EltTy.bits .f32 = 32 ∨ (Rect.unit (s := S2048x1024) (fun _ => 0) (fun a => (Pipeline.Clip.of (cc0_transform_1 i a) (S2048x1024.size a) (S100000x1024.size a)).extent (S2048x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16x2048.size a < S16x100000.size a
  hwx0_2 : ∀ i : grid0.Coords, EltTy.bits .f32 = 32 ∨ (Rect.unit (s := S16x100000) (fun a => cc0_transform_2 i a * S16x2048.size a) (fun a => (Pipeline.Clip.of (cc0_transform_2 i a) (S16x2048.size a) (S16x100000.size a)).extent (S16x2048.size a)) fun a => Pipeline.Clip.inb (Pipeline.Clip.ok_of (hstart0_2 i a))).WholeWords (EltTy.packing .f32)
  hwxs0_2 : ∀ i : grid0.Coords, EltTy.bits .f32 = 32 ∨ (Rect.unit (s := S16x2048) (fun _ => 0) (fun a => (Pipeline.Clip.of (cc0_transform_2 i a) (S16x2048.size a) (S16x100000.size a)).extent (S16x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S26x1024.size a ≤ S26x1024.size a
  hwx0_3 : ∀ i : grid0.Coords, EltTy.bits .f32 = 32 ∨ (Rect.block (s := S26x1024) S26x1024.size (cc0_transform_3 i) (hinb0_3 i)).WholeWords (EltTy.packing .f32)

variable [Facts₀]

def dot_S16x2048_S2048x1024_S16x1024_1_0_0_1_n_n : DotDims S16x2048 S2048x1024 S16x1024 where
  lhsContracting := [1]
  rhsContracting := [0]
  lhsNonContracting := [0]
  rhsNonContracting := [1]
  lhsBatch := []
  rhsBatch := []
  wf := dot_S16x2048_S2048x1024_S16x1024_1_0_0_1_n_n_wf

abbrev win0_0 : Pipeline.Window sig grid0 :=
  Pipeline.Window.ofSpec (Memref.whole main_v2) S26x16x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v0) S2048x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S16x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v3) S26x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S1024x26x16 : Shape := ⟨3, ![1024, 26, 16]⟩
abbrev S1024x100000 : Shape := ⟨2, ![1024, 100000]⟩
abbrev S100000x16 : Shape := ⟨2, ![100000, 16]⟩
abbrev S1024x16 : Shape := ⟨2, ![1024, 16]⟩
abbrev S1024x16x1 : Shape := ⟨3, ![1024, 16, 1]⟩
abbrev S1024x26x1 : Shape := ⟨3, ![1024, 26, 1]⟩
abbrev S1024x26 : Shape := ⟨2, ![1024, 26]⟩

abbrev nBuf : Space → Nat
  | .hbm => 7
  | .vmem => 0
  | .smem => 0
  | _ => 0

abbrev bufTy : (tb : Table) → Fin (tcTables nBuf tb) → BufTy
  | .hbm, ⟨0, _⟩ => ⟨S1024x26x16, .f32⟩
  | .hbm, ⟨1, _⟩ => ⟨S1024x100000, .f32⟩
  | .hbm, ⟨2, _⟩ => ⟨S100000x16, .f32⟩
  | .hbm, ⟨3, _⟩ => ⟨S1024x16, .f32⟩
  | .hbm, ⟨4, _⟩ => ⟨S1024x16x1, .f32⟩
  | .hbm, ⟨5, _⟩ => ⟨S1024x26x1, .f32⟩
  | .hbm, ⟨6, _⟩ => ⟨S1024x26, .f32⟩
  | _, _ => ⟨S1024x26x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S1024x16_S1024x16x1 : S1024x16.ShapeCasts S1024x16x1
  shapeCasts_S1024x26x1_S1024x26 : S1024x26x1.ShapeCasts S1024x26
  dot_S1024x100000_S100000x16_S1024x16_1_0_0_1_n_n_wf : DotDims.WF S1024x100000 S100000x16 S1024x16 [1] [0] [0] [1] [] []
  dot_S1024x26x16_S1024x16x1_S1024x26x1_2_1_1_2_0_0_wf : DotDims.WF S1024x26x16 S1024x16x1 S1024x26x1 [2] [1] [1] [2] [0] [0]

variable [Facts₀]

def dot_S1024x100000_S100000x16_S1024x16_1_0_0_1_n_n : DotDims S1024x100000 S100000x16 S1024x16 where
  lhsContracting := [1]
  rhsContracting := [0]
  lhsNonContracting := [0]
  rhsNonContracting := [1]
  lhsBatch := []
  rhsBatch := []
  wf := dot_S1024x100000_S100000x16_S1024x16_1_0_0_1_n_n_wf
def dot_S1024x26x16_S1024x16x1_S1024x26x1_2_1_1_2_0_0 : DotDims S1024x26x16 S1024x16x1 S1024x26x1 where
  lhsContracting := [2]
  rhsContracting := [1]
  lhsNonContracting := [1]
  rhsNonContracting := [2]
  lhsBatch := [0]
  rhsBatch := [0]
  wf := dot_S1024x26x16_S1024x16x1_S1024x26x1_2_1_1_2_0_0_wf

class Facts : Prop extends Facts₀ where

variable [Facts]
-- ==== Proof.KData.lean ====
/-
  What the pipeline's proof data says of the kernel on one core: the three input windows' staging buffers as the
  body finds them (the transposed x whole; a 2048-row block of the transposed one-hot matrix and a 2048-column
  block of the transposed coefficient table, the last of each cut at the arrays' end and filled out with words
  nothing names), the accumulator the kernel keeps in scratch from point to point, and the result block stored
  at the last point.
-/
import proofs.«137403_g48799418417398_cont_8to1_c_1139_16_alg».proof.Proof.Gen.Kernel.Frame
import proofs.«137403_g48799418417398_cont_8to1_c_1139_16_alg».proof.Proof.Gen.Kernel.Skeleton
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The filler a staging buffer is stated with past the array's end: the zero word. Nothing reads it. -/
def zf {S : Shape} : S.Idx → Elt F .f32 := fun _ => Scalar.ofBits .f32 0x00000000#32

/-- The transposed one-hot block's staging buffer at point `t` once fetched: rows `2048 t ‥ 2048 t + 2047` of the
    transposed matrix that lie inside it, `d` on the rows past its end (the last block only). -/
def ohBuf (c : Dev nD) (t : Fin cfg0.N) (d : S2048x1024.Idx → Elt F .f32) : Vec F S2048x1024 .f32 :=
  win0_1.fill (grid0.coords t) d (iblk m c 1 t)

/-- The transposed coefficient block's staging buffer at point `t` once fetched: columns `2048 t ‥ 2048 t + 2047`
    inside the table, `d` past its end. -/
def cfBuf (c : Dev nD) (t : Fin cfg0.N) (d : S16x2048.Idx → Elt F .f32) : Vec F S16x2048 .f32 :=
  win0_2.fill (grid0.coords t) d (iblk m c 2 t)

/-- The transposed x, whole: window 0's one block. -/
def xBuf (c : Dev nD) (t : Fin cfg0.N) : Vec F S26x16x1024 .f32 := iblk m c 0 t

/-- THE ACCUMULATOR after point `n`: zeroed at point 0; at every point but the last the block product added; at the
    last point the product of the blocks with the rows and columns past the arrays' end replaced by zero. -/
def accAt (c : Dev nD) : (n : ℕ) → n < cfg0.N → Vec F S16x1024 .f32
  | 0, hn => k0_pay5 (ohBuf m c ⟨0, hn⟩ zf) (cfBuf m c ⟨0, hn⟩ zf) (k0_pay1 (F := F))
  | n + 1, hn =>
    if n + 1 < 48 then k0_pay5 (ohBuf m c ⟨n + 1, hn⟩ zf) (cfBuf m c ⟨n + 1, hn⟩ zf) (accAt c n (Nat.lt_of_succ_lt hn))
    else k0_pay4 (grid0.coords ⟨n + 1, hn⟩) (ohBuf m c ⟨n + 1, hn⟩ zf) (cfBuf m c ⟨n + 1, hn⟩ zf) (accAt c n (Nat.lt_of_succ_lt hn))

theorem accAt_zero (c : Dev nD) (hn : 0 < cfg0.N) :
    accAt m c 0 hn = k0_pay5 (ohBuf m c ⟨0, hn⟩ zf) (cfBuf m c ⟨0, hn⟩ zf) (k0_pay1 (F := F)) := rfl

theorem accAt_mid (c : Dev nD) (n : ℕ) (hn : n + 1 < cfg0.N) (h : n + 1 < 48) :
    accAt m c (n + 1) hn = k0_pay5 (ohBuf m c ⟨n + 1, hn⟩ zf) (cfBuf m c ⟨n + 1, hn⟩ zf) (accAt m c n (Nat.lt_of_succ_lt hn)) := by
  rw [accAt, if_pos h]

theorem accAt_last (c : Dev nD) (n : ℕ) (hn : n + 1 < cfg0.N) (h : ¬n + 1 < 48) :
    accAt m c (n + 1) hn = k0_pay4 (grid0.coords ⟨n + 1, hn⟩) (ohBuf m c ⟨n + 1, hn⟩ zf) (cfBuf m c ⟨n + 1, hn⟩ zf) (accAt m c n (Nat.lt_of_succ_lt hn)) := by
  rw [accAt, if_neg h]

/-- The last point. -/
abbrev tLast : Fin cfg0.N := ⟨48, by decide⟩

/-- The result block the last point stores: the transposed x times the accumulator, summed over the parameters. -/
def outLast (c : Dev nD) : Vec F S26x1024 .f32 := k0_pay6 (xBuf m c tLast) (accAt m c 48 (by decide))

/-- The scratch operand as a memref. -/
abbrev scM : Memref sig .tc .vmem S16x1024 .f32 := Memref.whole cc0_scratch0

/-- The region invariant before position `n`: before the first point the scratch at anything; afterwards at the
    accumulator the point before left; the generator register at some state throughout. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- The proof data of the one pipeline on core `c`: the arrays as the region finds them; after the body each input's
    buffer as it was fetched (past the arrays' end the zero word, which no obligation states), the result's at the
    block the last point stores; the scratch tracked in the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xBuf m c t
    | ⟨1, _⟩ => ohBuf m c t zf
    | ⟨2, _⟩ => cfBuf m c t zf
    | ⟨3, _⟩ => outLast m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = xBuf m c t := by dsimp only [dats]
theorem after_1 (c : Dev nD) (t : Fin cfg0.N) : (dats m 0 c).after 1 t = ohBuf m c t zf := by dsimp only [dats]
theorem after_2 (c : Dev nD) (t : Fin cfg0.N) : (dats m 0 c).after 2 t = cfBuf m c t zf := by dsimp only [dats]
theorem after_3 (c : Dev nD) (t : Fin cfg0.N) : (dats m 0 c).after 3 t = outLast m c := by dsimp only [dats]

end Cert.Kernel.Hand

end
-- ==== Proof.KRuns.lean ====
/-
  The kernel body run on any whole staging memrefs, in each of the three cases its conditionals meet on the grid of
  49 points: the first point (the accumulator zeroed, then the first block product added), the points between, and
  the last (the masked block product added, then the result block stored). Each run is stated over the contents the
  buffers hold and leaves the scratch and the result's buffer at the body's own terms of them.
-/
import proofs.«137403_g48799418417398_cont_8to1_c_1139_16_alg».proof.Proof.Gen.Kernel.Frame
import proofs.«137403_g48799418417398_cont_8to1_c_1139_16_alg».proof.Proof.Gen.Kernel.Skeleton
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The branch conditions, from the grid coordinate -/

/-- `program_id == 0`, -/
abbrev condFirst (i : grid0.Coords) : Prop := (Scalar.cmpi .ne (Scalar.extui (Scalar.cmpi .eq (BitVec.ofNat 32 (i 0).val) 0#32)) 0#32) = 1#1
/-- `program_id == 48` (the masked product), -/
abbrev condLast (i : grid0.Coords) : Prop := (Scalar.cmpi .ne (Scalar.extui (Scalar.cmpi .eq (BitVec.ofNat 32 (i 0).val) 48#32)) 0#32) = 1#1
/-- `program_id < 48` (the plain product), -/
abbrev condMid (i : grid0.Coords) : Prop := (Scalar.cmpi .ne (Scalar.extui (Scalar.cmpi .slt (BitVec.ofNat 32 (i 0).val) 48#32)) 0#32) = 1#1
/-- `program_id == 48` again (the result's store). -/
abbrev condOut (i : grid0.Coords) : Prop := k0_cond4 i = 1#1

/-- Each holds exactly where its comparison says, decided over the 49 points. -/
theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 48 :=
  (by decide +kernel : ∀ t : Fin grid0.N, condLast (grid0.coords t) ↔ t.val = 48)
theorem hcondMid : ∀ t : Fin cfg0.N, condMid (grid0.coords t) ↔ t.val < 48 :=
  (by decide +kernel : ∀ t : Fin grid0.N, condMid (grid0.coords t) ↔ t.val < 48)
theorem hcondOut : ∀ t : Fin cfg0.N, condOut (grid0.coords t) ↔ t.val = 48 :=
  (by decide +kernel : ∀ t : Fin grid0.N, condOut (grid0.coords t) ↔ t.val = 48)

/-- The result's window is idle, and not written back, at every point but the last; there it is live and written back. -/
theorem idle3 : ∀ t : Fin cfg0.N, t.val ≠ 48 → cfg0.idle 3 (grid0.coords t) = true :=
  (by decide +kernel : ∀ t : Fin grid0.N, t.val ≠ 48 → cfg0.idle 3 (grid0.coords t) = true)
theorem noFlush3 : ∀ t : Fin cfg0.N, t.val ≠ 48 → (cfg0.win 3).flush t = false :=
  (by decide +kernel : ∀ t : Fin grid0.N, t.val ≠ 48 → win0_3.flush t = false)
theorem live3 : ∀ t : Fin cfg0.N, t.val = 48 → cfg0.idle 3 (grid0.coords t) = false :=
  (by decide +kernel : ∀ t : Fin grid0.N, t.val = 48 → cfg0.idle 3 (grid0.coords t) = false)

/-- The one-hot and coefficient blocks are cut at the arrays' end at the last point only. -/
theorem noClip1 : ∀ t : Fin cfg0.N, t.val < 48 → ∀ a, win0_1.clip (grid0.coords t) a = none :=
  (by decide +kernel : ∀ t : Fin grid0.N, t.val < 48 → ∀ a, win0_1.clip (grid0.coords t) a = none)
theorem noClip2 : ∀ t : Fin cfg0.N, t.val < 48 → ∀ a, win0_2.clip (grid0.coords t) a = none :=
  (by decide +kernel : ∀ t : Fin grid0.N, t.val < 48 → ∀ a, win0_2.clip (grid0.coords t) a = none)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body in each case -/

set_option maxHeartbeats 1000000 in
/-- A point strictly between the first and the last: the accumulator in scratch gains the product of the
    coefficient block and the one-hot block; every staging buffer is left as it was found. -/
theorem run_mid (c : Dev nD) (i : grid0.Coords)
    (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hF : ¬condFirst i) (hL : ¬condLast i) (hM : condMid i) (hO : ¬condOut i)
    (X1 : Vec F S26x16x1024 .f32) (X2 : Vec F S2048x1024 .f32) (X3 : Vec F S16x2048 .f32) (X4 : Vec F S26x1024 .f32) (a : Vec F S16x1024 .f32)
    (E : Set ℕ) (K : PUnit → sProp 𝕄) :
    iprop(owns (c : Thread nD τ) arg1 fullShare X1 ∗ owns (c : Thread nD τ) arg2 fullShare X2 ∗ owns (c : Thread nD τ) arg3 fullShare X3
          ∗ owns (c : Thread nD τ) arg4 fullShare X4 ∗ owns (c : Thread nD τ) arg5 fullShare a
          ∗ (iprop(owns (c : Thread nD τ) arg1 fullShare X1 ∗ owns (c : Thread nD τ) arg2 fullShare X2 ∗ owns (c : Thread nD τ) arg3 fullShare X3
                ∗ owns (c : Thread nD τ) arg4 fullShare X4 ∗ owns (c : Thread nD τ) arg5 fullShare (k0_pay5 X2 X3 a)) -∗ K ⟨⟩))
      ⊢ wp frame (wpE (defs₀ (F := F)) Variants.none c none) E (cc0__coef_kernel i arg1 harg1 arg2 harg2 arg3 harg3 arg4 harg4 arg5 harg5) K := by
  simp only [cc0__coef_kernel_eq_skeleton]; unfold cc0__coef_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hF | exact hL | exact hM | exact hO)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  · iexists _; isplitr
    swap; · iexact H5
    ipureintro
    rw [View.read_writes_eq_canon _ _ _ (fun y => ⟨_, List.mem_singleton_self _, View.mem_set_unit_zero hz2 inb_S16x1024_S16x1024_0_0 y⟩), View.canon_unit_zero hz2]
    simp only [View.readAt_eq_ld, harg2.read_unread, harg3.read_unread, harg5.read_unread,
      View.ld_unit_zero (S := S2048x1024) hz2, View.ld_unit_zero (S := S16x2048) hz2, View.ld_unit_zero (S := S16x1024) hz2]

set_option maxHeartbeats 1000000 in
/-- The first point: the scratch, holding anything, is zeroed, and then gains the first block product. -/
theorem run_first (c : Dev nD) (i : grid0.Coords)
    (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hF : condFirst i) (hL : ¬condLast i) (hM : condMid i) (hO : ¬condOut i)
    (X1 : Vec F S26x16x1024 .f32) (X2 : Vec F S2048x1024 .f32) (X3 : Vec F S16x2048 .f32) (X4 : Vec F S26x1024 .f32)
    (E : Set ℕ) (K : PUnit → sProp 𝕄) :
    iprop(owns (c : Thread nD τ) arg1 fullShare X1 ∗ owns (c : Thread nD τ) arg2 fullShare X2 ∗ owns (c : Thread nD τ) arg3 fullShare X3
          ∗ owns (c : Thread nD τ) arg4 fullShare X4 ∗ (∃ d, owns (c : Thread nD τ) arg5 fullShare d)
          ∗ (iprop(owns (c : Thread nD τ) arg1 fullShare X1 ∗ owns (c : Thread nD τ) arg2 fullShare X2 ∗ owns (c : Thread nD τ) arg3 fullShare X3
                ∗ owns (c : Thread nD τ) arg4 fullShare X4 ∗ owns (c : Thread nD τ) arg5 fullShare (k0_pay5 X2 X3 (k0_pay1 (F := F)))) -∗ K ⟨⟩))
      ⊢ wp frame (wpE (defs₀ (F := F)) Variants.none c none) E (cc0__coef_kernel i arg1 harg1 arg2 harg2 arg3 harg3 arg4 harg4 arg5 harg5) K := by
  simp only [cc0__coef_kernel_eq_skeleton]; unfold cc0__coef_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  obtain rfl := harg1.eq_unread hf1; obtain rfl := harg2.eq_unread hf2; obtain rfl := harg3.eq_unread hf3
  obtain rfl := harg4.eq_unread hf4
  sl_exec (disch := first | exact hF | exact hL | exact hM | exact hO)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  · iexists _; isplitr
    swap; · iexact H5
    ipureintro
    rw [View.read_writes_eq_canon _ _ _ (fun y => ⟨_, List.mem_cons_self .., View.mem_set_unit_zero hz2 inb_S16x1024_S16x1024_0_0 y⟩), View.canon_cons_unit_zero hz2]
    sl_unfold_words
    simp only [View.readAt_eq_ld, harg2.read_unread, harg3.read_unread,
      View.ld_unit_zero (S := S2048x1024) hz2, View.ld_unit_zero (S := S16x2048) hz2, View.ld_unit_zero (S := S16x1024) hz2,
      View.readCov_unit_zero (S := S16x1024) _ hz2]

set_option maxHeartbeats 1000000 in
/-- The last point: the accumulator gains the product of the two blocks with the rows and columns past the arrays'
    end replaced by zero, and the result's buffer, holding anything, is stored with the transposed x times that
    accumulator summed over the parameters. -/
theorem run_last (c : Dev nD) (i : grid0.Coords)
    (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hF : ¬condFirst i) (hL : condLast i) (hM : ¬condMid i) (hO : condOut i)
    (X1 : Vec F S26x16x1024 .f32) (X2 : Vec F S2048x1024 .f32) (X3 : Vec F S16x2048 .f32) (a : Vec F S16x1024 .f32)
    (E : Set ℕ) (K : PUnit → sProp 𝕄) :
    iprop(owns (c : Thread nD τ) arg1 fullShare X1 ∗ owns (c : Thread nD τ) arg2 fullShare X2 ∗ owns (c : Thread nD τ) arg3 fullShare X3
          ∗ (∃ d, owns (c : Thread nD τ) arg4 fullShare d) ∗ owns (c : Thread nD τ) arg5 fullShare a
          ∗ (iprop(owns (c : Thread nD τ) arg1 fullShare X1 ∗ owns (c : Thread nD τ) arg2 fullShare X2 ∗ owns (c : Thread nD τ) arg3 fullShare X3
                ∗ owns (c : Thread nD τ) arg4 fullShare (k0_pay6 X1 (k0_pay4 i X2 X3 a)) ∗ owns (c : Thread nD τ) arg5 fullShare (k0_pay4 i X2 X3 a)) -∗ K ⟨⟩))
      ⊢ wp frame (wpE (defs₀ (F := F)) Variants.none c none) E (cc0__coef_kernel i arg1 harg1 arg2 harg2 arg3 harg3 arg4 harg4 arg5 harg5) K := by
  simp only [cc0__coef_kernel_eq_skeleton]; unfold cc0__coef_kernel_skel
  unfold owns
  iintro ⟨⟨%f1, %hf1, H1⟩, ⟨%f2, %hf2, H2⟩, ⟨%f3, %hf3, H3⟩, ⟨%d4, %f4, -, H4⟩, ⟨%f5, %hf5, H5⟩, Hk⟩
  obtain rfl := harg1.eq_unread hf1; obtain rfl := harg2.eq_unread hf2; obtain rfl := harg3.eq_unread hf3
  obtain rfl := harg5.eq_unread hf5
  sl_exec (disch := first | exact hF | exact hL | exact hM | exact hO)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz2 inb_S26x1024_S26x1024_0_0 y⟩), View.canon_unit_zero hz2]
    sl_unfold_words
    simp only [View.readAt_eq_ld, harg1.read_unread, harg2.read_unread, harg3.read_unread, harg5.read_unread,
      View.ld_unit_zero (S := S26x16x1024) hz3, View.ld_unit_zero (S := S2048x1024) hz2, View.ld_unit_zero (S := S16x2048) hz2, View.ld_unit_zero (S := S16x1024) hz2,
      View.readCov_unit_zero (S := S16x1024) _ hz2]
  · iexists _; isplitr
    swap; · iexact H5
    ipureintro
    sl_unfold_words
    rw [View.read_writes_eq_canon _ _ _ (fun y => ⟨_, List.mem_singleton_self _, View.mem_set_unit_zero hz2 inb_S16x1024_S16x1024_0_0 y⟩), View.canon_unit_zero hz2]
    simp only [View.readAt_eq_ld, harg2.read_unread, harg3.read_unread, harg5.read_unread,
      View.ld_unit_zero (S := S2048x1024) hz2, View.ld_unit_zero (S := S16x2048) hz2, View.ld_unit_zero (S := S16x1024) hz2]

end Cert.Kernel.Hand

end
-- ==== Proof.KIndep.lean ====
/-
  The accumulator does not depend on the words a cut fetch leaves past the arrays' end: before the last point the
  one-hot and coefficient blocks lie inside their arrays, so their buffers hold no such word; at the last point the
  kernel replaces rows and columns from 1696 on (100000 − 48 · 2048) by zero before it multiplies.
-/
import proofs.«137403_g48799418417398_cont_8to1_c_1139_16_alg».proof.Proof.KData
import proofs.«137403_g48799418417398_cont_8to1_c_1139_16_alg».proof.Proof.KRuns
import Idealize.ShloMosaic.Lib.ValueIdx
import Idealize.ShloMosaic.Lib.StableHlo.Predicate

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- Before the last point the one-hot block is inside its array: the fetch fills the whole buffer. -/
theorem ohBuf_indep (c : Dev nD) (t : Fin cfg0.N) (ht : t.val < 48) (d d' : S2048x1024.Idx → Elt F .f32) :
    ohBuf m c t d = ohBuf m c t d' := by
  funext j
  have hm : win0_1.moved (grid0.coords t) j = true :=
    (win0_1.moved_iff _ j).mpr fun a => by
      have := (j a).isLt; unfold Window.xsize; rw [noClip1 t ht a]; exact this
  unfold ohBuf Window.fill; rw [dif_pos hm, dif_pos hm]

/-- Likewise the coefficient block. -/
theorem cfBuf_indep (c : Dev nD) (t : Fin cfg0.N) (ht : t.val < 48) (d d' : S16x2048.Idx → Elt F .f32) :
    cfBuf m c t d = cfBuf m c t d' := by
  funext j
  have hm : win0_2.moved (grid0.coords t) j = true :=
    (win0_2.moved_iff _ j).mpr fun a => by
      have := (j a).isLt; unfold Window.xsize; rw [noClip2 t ht a]; exact this
  unfold cfBuf Window.fill; rw [dif_pos hm, dif_pos hm]

open Idealize.ShloMosaic.ValueIdx

/-- The word the last point compares rows and columns with: 100000 − 48 · 2048 = 1696. -/
private theorem edge_word :
    Scalar.subi 100000#32 (Scalar.muli (BitVec.ofNat 32 ((grid0.coords (tLast)) 0).val) 2048#32) = 1696#32 := by
  decide +kernel

/-- What the last point moves of a one-hot block: 1696 rows, every column. -/
private theorem xsize1_last : ∀ a, win0_1.xsize (grid0.coords tLast) a = ![1696, 1024] a := by
  decide +kernel

/-- What the last point moves of a coefficient block: every row, 1696 columns. -/
private theorem xsize2_last : ∀ a, win0_2.xsize (grid0.coords tLast) a = ![16, 1696] a := by
  decide +kernel

/-- A lane of the mask "coordinate < 1696" that is set has its coordinate below 1696. -/
private theorem lane_lt (n : ℕ) (hn : n < 2048)
    (h : IntOp.cmpi .slt (BitVec.ofNat 32 n) 1696#32 = 1#1) : n < 1696 := by
  have h1 : (BitVec.ofNat 32 n).toNat = n := by
    rw [BitVec.toNat_ofNat]; exact Nat.mod_eq_of_lt (by omega)
  have := (StableHlo.Predicate.slt_iff_toNat (a := BitVec.ofNat 32 n) (b := 1696#32) (by rw [h1]; omega) (by decide)).mp h
  rw [h1] at this
  exact this

/-- The one-hot block with the rows from 1696 on replaced by zero, at the last point: the same whatever the
    buffer held past the array's end. -/
private theorem oh_masked (c : Dev nD) (d d' : S2048x1024.Idx → Elt F .f32) (z : F .f32) :
    select (cmpi .slt (iota .tc S2048x1024 32 [0] iota_S2048x1024_d0_w32)
        (broadcast S2048x1024 (Scalar.subi 100000#32 (Scalar.muli (BitVec.ofNat 32 ((grid0.coords tLast) 0).val) 2048#32))))
      (k0_pay2 (ohBuf m c tLast d)) (broadcast S2048x1024 z)
    = select (cmpi .slt (iota .tc S2048x1024 32 [0] iota_S2048x1024_d0_w32)
        (broadcast S2048x1024 (Scalar.subi 100000#32 (Scalar.muli (BitVec.ofNat 32 ((grid0.coords tLast) 0).val) 2048#32))))
      (k0_pay2 (ohBuf m c tLast d')) (broadcast S2048x1024 z) := by
  funext j
  obtain ⟨a, b, rfl⟩ : ∃ (a : Fin 2048) (b : Fin 1024), j = ix2 a b := ⟨j 0, j 1, eq_ix2 j⟩
  rw [select_apply, select_apply]
  have hbit : cmpi .slt (iota .tc S2048x1024 32 [0] iota_S2048x1024_d0_w32)
        (broadcast S2048x1024 (Scalar.subi 100000#32 (Scalar.muli (BitVec.ofNat 32 ((grid0.coords tLast) 0).val) 2048#32))) (ix2 a b)
      = IntOp.cmpi .slt (BitVec.ofNat 32 a.val) 1696#32 := by
    show IntOp.cmpi .slt (iota .tc S2048x1024 32 [0] iota_S2048x1024_d0_w32 (ix2 a b)) (broadcast S2048x1024 _ (ix2 a b)) = _
    rw [iota_single_apply, broadcast_apply, edge_word]
  rw [hbit]
  by_cases hb : IntOp.cmpi .slt (BitVec.ofNat 32 a.val) 1696#32 = 1#1
  · have ha : a.val < 1696 := lane_lt a.val a.isLt hb
    have hmv : win0_1.moved (grid0.coords tLast) (ix2 a b) = true :=
      (win0_1.moved_iff _ _).mpr fun ax => by
        rw [xsize1_last ax]
        match ax with
        | ⟨0, _⟩ => exact ha
        | ⟨1, _⟩ => exact b.isLt
    have hv : k0_pay2 (ohBuf m c tLast d) (ix2 a b) = k0_pay2 (ohBuf m c tLast d') (ix2 a b) := by
      unfold k0_pay2; rw [shapeCast_self, shapeCast_self]
      unfold ohBuf Window.fill; rw [dif_pos hmv, dif_pos hmv]
    rw [hv]
  · rw [eq_zero_of_ne_one hb, select_zero, select_zero]

/-- The coefficient block with the columns from 1696 on replaced by zero, at the last point: the same whatever
    the buffer held past the table's end. -/
private theorem cf_masked (c : Dev nD) (d d' : S16x2048.Idx → Elt F .f32) (z : F .f32) :
    select (cmpi .slt (iota .tc S16x2048 32 [1] iota_S16x2048_d1_w32)
        (broadcast S16x2048 (Scalar.subi 100000#32 (Scalar.muli (BitVec.ofNat 32 ((grid0.coords tLast) 0).val) 2048#32))))
      (k0_pay3 (cfBuf m c tLast d)) (broadcast S16x2048 z)
    = select (cmpi .slt (iota .tc S16x2048 32 [1] iota_S16x2048_d1_w32)
        (broadcast S16x2048 (Scalar.subi 100000#32 (Scalar.muli (BitVec.ofNat 32 ((grid0.coords tLast) 0).val) 2048#32))))
      (k0_pay3 (cfBuf m c tLast d')) (broadcast S16x2048 z) := by
  funext j
  obtain ⟨a, b, rfl⟩ : ∃ (a : Fin 16) (b : Fin 2048), j = ix2 a b := ⟨j 0, j 1, eq_ix2 j⟩
  rw [select_apply, select_apply]
  have hbit : cmpi .slt (iota .tc S16x2048 32 [1] iota_S16x2048_d1_w32)
        (broadcast S16x2048 (Scalar.subi 100000#32 (Scalar.muli (BitVec.ofNat 32 ((grid0.coords tLast) 0).val) 2048#32))) (ix2 a b)
      = IntOp.cmpi .slt (BitVec.ofNat 32 b.val) 1696#32 := by
    show IntOp.cmpi .slt (iota .tc S16x2048 32 [1] iota_S16x2048_d1_w32 (ix2 a b)) (broadcast S16x2048 _ (ix2 a b)) = _
    rw [iota_single_apply, broadcast_apply, edge_word]
  rw [hbit]
  by_cases hb : IntOp.cmpi .slt (BitVec.ofNat 32 b.val) 1696#32 = 1#1
  · have hlt : b.val < 1696 := lane_lt b.val b.isLt hb
    have hmv : win0_2.moved (grid0.coords tLast) (ix2 a b) = true :=
      (win0_2.moved_iff _ _).mpr fun ax => by
        rw [xsize2_last ax]
        match ax with
        | ⟨0, _⟩ => exact a.isLt
        | ⟨1, _⟩ => exact hlt
    have hv : k0_pay3 (cfBuf m c tLast d) (ix2 a b) = k0_pay3 (cfBuf m c tLast d') (ix2 a b) := by
      unfold k0_pay3; rw [shapeCast_self, shapeCast_self]
      unfold cfBuf Window.fill; rw [dif_pos hmv, dif_pos hmv]
    rw [hv]
  · rw [eq_zero_of_ne_one hb, select_zero, select_zero]

/-- At the last point the masked product reads the two buffers only on the rows and columns inside the arrays. -/
theorem pay4_indep (c : Dev nD) (t : Fin cfg0.N) (ht : t.val = 48) (d1 d1' : S2048x1024.Idx → Elt F .f32)
    (d2 d2' : S16x2048.Idx → Elt F .f32) (a : Vec F S16x1024 .f32) :
    k0_pay4 (grid0.coords t) (ohBuf m c t d1) (cfBuf m c t d2) a
      = k0_pay4 (grid0.coords t) (ohBuf m c t d1') (cfBuf m c t d2') a := by
  obtain rfl : t = tLast := Fin.ext ht
  unfold k0_pay4
  dsimp only
  rw [oh_masked m c d1 d1', cf_masked m c d2 d2']

end Cert.Kernel.Hand

end
-- ==== Proof.KBody.lean ====
/-
  The frame of the kernel's program: at every grid point the body, run on what the pipeline hands it, leaves the
  accumulator one block product further and every staging buffer as the proof data says; hence every weakly fair
  execution of @main terminates, faults nowhere, and leaves the three arguments as they were — with the result
  array after the run named.
-/
import proofs.«137403_g48799418417398_cont_8to1_c_1139_16_alg».proof.Proof.KData
import proofs.«137403_g48799418417398_cont_8to1_c_1139_16_alg».proof.Proof.KRuns
import proofs.«137403_g48799418417398_cont_8to1_c_1139_16_alg».proof.Proof.KIndep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One step of the accumulator, whatever a cut fetch left past the arrays' end -/

theorem accAt_step_first (c : Dev nD) (t : Fin cfg0.N) (h0 : t.val = 0) (d1 : S2048x1024.Idx → Elt F .f32) (d2 : S16x2048.Idx → Elt F .f32) :
    accAt m c t.val t.isLt = k0_pay5 (ohBuf m c t d1) (cfBuf m c t d2) (k0_pay1 (F := F)) := by
  obtain ⟨n, hn⟩ := t
  obtain rfl : n = 0 := h0
  rw [accAt_zero, ohBuf_indep m c ⟨0, hn⟩ (show (0 : ℕ) < 48 by decide) d1 zf, cfBuf_indep m c ⟨0, hn⟩ (show (0 : ℕ) < 48 by decide) d2 zf]

theorem accAt_step_mid (c : Dev nD) (t : Fin cfg0.N) (h0 : t.val ≠ 0) (h : t.val < 48) (d1 : S2048x1024.Idx → Elt F .f32) (d2 : S16x2048.Idx → Elt F .f32) :
    accAt m c t.val t.isLt = k0_pay5 (ohBuf m c t d1) (cfBuf m c t d2) (accAt m c (t.val - 1) (Nat.lt_of_le_of_lt (Nat.sub_le _ _) t.isLt)) := by
  obtain ⟨n, hn⟩ := t
  cases n with
  | zero => exact absurd rfl h0
  | succ n =>
    rw [accAt_mid m c n hn h, ohBuf_indep m c ⟨n + 1, hn⟩ h d1 zf, cfBuf_indep m c ⟨n + 1, hn⟩ h d2 zf]
    rfl

theorem accAt_step_last (c : Dev nD) (t : Fin cfg0.N) (h : t.val = 48) (d1 : S2048x1024.Idx → Elt F .f32) (d2 : S16x2048.Idx → Elt F .f32) :
    accAt m c t.val t.isLt = k0_pay4 (grid0.coords t) (ohBuf m c t d1) (cfBuf m c t d2) (accAt m c (t.val - 1) (Nat.lt_of_le_of_lt (Nat.sub_le _ _) t.isLt)) := by
  obtain ⟨n, hn⟩ := t
  cases n with
  | zero => exact absurd h (show ¬(0 : ℕ) = 48 by decide)
  | succ n =>
    have hn48 : ¬n + 1 < 48 := by simp only at h; omega
    rw [accAt_last m c n hn hn48, pay4_indep m c ⟨n + 1, hn⟩ h d1 zf d2 zf]
    rfl

/-! ## What the body finds -/

/-- Each window's current staging memref at point `t`, as the pipeline passes it, and its wholeness. -/
abbrev ms0 (t : Fin cfg0.N) : Memref sig .tc .vmem S26x16x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S26x1024 .f32 := win0_3.stage (cfg0.slots t 3)
abbrev hs3 (t : Fin cfg0.N) : (ms3 t).IsWhole := hstage0_3 ((cfg0.slots t 3).cast nbuf0_3)

/-- The class invariant with the scratch as a memref owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- x's buffer holds the transposed x at every point (fetched at the first, left in place after). -/
theorem before_0 (c : Dev nD) (t : Fin cfg0.N) (d) : (dats m 0 c).before 0 t d = xBuf m c t :=
  before0_0_of m (dats m 0 c) (A_eq m c 0) (fun t => by rw [after_0]; rfl) t d

/-- The one-hot and coefficient buffers are fetched at every point: the block inside the array, `d` past its end. -/
theorem before_1 (c : Dev nD) (t : Fin cfg0.N) (d) : (dats m 0 c).before 1 t d = ohBuf m c t d := by
  unfold Dat.before; rw [if_pos (fetch0_1 t)]; unfold Dat.fetched Dat.blockOf ohBuf iblk; rw [A_eq]; try rfl
theorem before_2 (c : Dev nD) (t : Fin cfg0.N) (d) : (dats m 0 c).before 2 t d = cfBuf m c t d := by
  unfold Dat.before; rw [if_pos (fetch0_2 t)]; unfold Dat.fetched Dat.blockOf cfBuf iblk; rw [A_eq]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

/-- The inputs' buffers go back as the proof data states them: x's at the transposed x; the two cut windows' at
    their blocks inside the arrays, whatever lies past. -/
theorem leaves_0 (c : Dev nD) (t : Fin cfg0.N) :
    (dats m 0 c).leaves 0 t = owns (c : Thread nD τ) (ms0 t) fullShare (xBuf m c t) := by
  unfold Dat.leaves; rw [show cfg0.idle 0 (grid0.coords t) = false from rfl, show cfg0.loose 0 = false from rfl]; simp only [after_0]
theorem leaves_1 (c : Dev nD) (t : Fin cfg0.N) :
    (dats m 0 c).leaves 1 t = iprop(∃ d, owns (c : Thread nD τ) (ms1 t) fullShare (ohBuf m c t d)) := by
  unfold Dat.leaves; rw [show cfg0.idle 1 (grid0.coords t) = false from rfl, show cfg0.loose 1 = true from rfl]; simp only [after_1]
  unfold ohBuf; simp only [Window.cut_fill]
  try rfl
theorem leaves_2 (c : Dev nD) (t : Fin cfg0.N) :
    (dats m 0 c).leaves 2 t = iprop(∃ d, owns (c : Thread nD τ) (ms2 t) fullShare (cfBuf m c t d)) := by
  unfold Dat.leaves; rw [show cfg0.idle 2 (grid0.coords t) = false from rfl, show cfg0.loose 2 = true from rfl]; simp only [after_2]
  unfold cfBuf; simp only [Window.cut_fill]
  try rfl
/-- The result's buffer goes back untouched before the last point, and at the result block at the last. -/
theorem leaves_3_last (c : Dev nD) (t : Fin cfg0.N) (h : t.val = 48) :
    (dats m 0 c).leaves 3 t = owns (c : Thread nD τ) (ms3 t) fullShare (outLast m c) := by
  unfold Dat.leaves; rw [live3 t h, show cfg0.loose 3 = false from rfl]; simp only [after_3]

set_option maxHeartbeats 1600000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, leaves_0, leaves_1, leaves_2]
  rw [show (dats m 0 c).owesAt () t.succ = (dats m 0 c).owesAt () t.castSucc from rfl]
  rw [show (dats m 0 c).Φ t.succ = PhiS m c (t.val + 1) t.isLt from rfl, PhiS_succ]
  have hN : t.val < 49 := lt_of_lt_of_eq t.isLt (show cfg0.N = 49 from N_0)
  by_cases h0 : t.val = 0
  · -- the first point
    have hF : condFirst (grid0.coords t) := (hcondFirst t).mpr h0
    have hL : ¬condLast (grid0.coords t) := fun h => by have := (hcondLast t).mp h; omega
    have hM : condMid (grid0.coords t) := (hcondMid t).mpr (by omega)
    have hO : ¬condOut (grid0.coords t) := fun h => by have := (hcondOut t).mp h; omega
    rw [Dat.leaves_idle (dats m 0 c) 3 t (idle3 t (by omega)) (noFlush3 t (by omega))]
    rw [PhiS_castSucc m c t, PhiS_zero m c _ _ h0, PhiA_eq]
    iintro ⟨⟨HS, Hg⟩, Ho, ⟨%d0, H0⟩, ⟨%d1, H1⟩, ⟨%d2, H2⟩, ⟨%d3, H3⟩⟩
    iapply (run_first c (grid0.coords t) (ms0 t) (hs0 t) (ms1 t) (hs1 t) (ms2 t) (hs2 t) (ms3 t) (hs3 t) scM (Memref.isWhole_whole _)
      hF hL hM hO (xBuf m c t) (ohBuf m c t d1) (cfBuf m c t d2) ((dats m 0 c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · rw [accAt_step_first m c t h0 d1 d2]; iexact HS
      iexact Hg
    isplitl [Ho]; · iexact Ho
    isplitl [H0]; · iexact H0
    isplitl [H1]; · iexists d1; iexact H1
    isplitl [H2]; · iexists d2; iexact H2
    iexists d3; iexact H3
  · by_cases h48 : t.val = 48
    · -- the last point
      have hF : ¬condFirst (grid0.coords t) := fun h => h0 ((hcondFirst t).mp h)
      have hL : condLast (grid0.coords t) := (hcondLast t).mpr h48
      have hM : ¬condMid (grid0.coords t) := fun h => by have := (hcondMid t).mp h; omega
      have hO : condOut (grid0.coords t) := (hcondOut t).mpr h48
      rw [leaves_3_last m c t h48]
      rw [PhiS_castSucc m c t, PhiS_pos m c _ _ h0]
      iintro ⟨⟨HS, Hg⟩, Ho, ⟨%d0, H0⟩, ⟨%d1, H1⟩, ⟨%d2, H2⟩, ⟨%d3, H3⟩⟩
      iapply (run_last c (grid0.coords t) (ms0 t) (hs0 t) (ms1 t) (hs1 t) (ms2 t) (hs2 t) (ms3 t) (hs3 t) scM (Memref.isWhole_whole _)
        hF hL hM hO (xBuf m c t) (ohBuf m c t d1) (cfBuf m c t d2) (accAt m c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      rw [← accAt_step_last m c t h48 d1 d2]
      isplitl [HS Hg]
      · isplitl [HS]; · iexact HS
        iexact Hg
      isplitl [Ho]; · iexact Ho
      isplitl [H0]; · iexact H0
      isplitl [H1]; · iexists d1; iexact H1
      isplitl [H2]; · iexists d2; iexact H2
      obtain rfl : t = tLast := Fin.ext h48
      iexact H3
    · -- a point between
      have hF : ¬condFirst (grid0.coords t) := fun h => h0 ((hcondFirst t).mp h)
      have hL : ¬condLast (grid0.coords t) := fun h => h48 ((hcondLast t).mp h)
      have hM : condMid (grid0.coords t) := (hcondMid t).mpr (by omega)
      have hO : ¬condOut (grid0.coords t) := fun h => h48 ((hcondOut t).mp h)
      rw [Dat.leaves_idle (dats m 0 c) 3 t (idle3 t h48) (noFlush3 t h48)]
      rw [PhiS_castSucc m c t, PhiS_pos m c _ _ h0]
      iintro ⟨⟨HS, Hg⟩, Ho, ⟨%d0, H0⟩, ⟨%d1, H1⟩, ⟨%d2, H2⟩, ⟨%d3, H3⟩⟩
      iapply (run_mid c (grid0.coords t) (ms0 t) (hs0 t) (ms1 t) (hs1 t) (ms2 t) (hs2 t) (ms3 t) (hs3 t) scM (Memref.isWhole_whole _)
        hF hL hM hO (xBuf m c t) (ohBuf m c t d1) (cfBuf m c t d2) ((dats m 0 c).before 3 t d3)
        (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · rw [accAt_step_mid m c t h0 (by omega) d1 d2]; iexact HS
        iexact Hg
      isplitl [Ho]; · iexact Ho
      isplitl [H0]; · iexact H0
      isplitl [H1]; · iexists d1; iexact H1
      isplitl [H2]; · iexists d2; iexact H2
      iexists d3; iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulator's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 49 := N_0; omega), PhiA_eq]
  iintro ⟨HS, Hg⟩
  isplitl [HS]
  · iexists _; iexact HS
  iexact Hg

/-! ## The run and the frame -/

set_option backward.isDefEq.respectTransparency.types false in
/-- Every weakly fair execution of @main terminates, and every final state has each array of the pipeline at what the
    proof data's write-backs leave and every other unscoped buffer as the transpose after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The three arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KIData.lean ====
/-
  What the pipeline's proof data says of the kernel on one core: the three input windows' staging buffers as the
  body finds them (the transposed x whole; a 2048-row block of the transposed one-hot matrix and a 2048-column
  block of the transposed coefficient table, the last of each cut at the arrays' end and filled out with words
  nothing names), the accumulator the kernel keeps in scratch from point to point, and the result block stored
  at the last point.
-/
import proofs.«137403_g48799418417398_cont_8to1_c_1139_16_alg».proof.Proof.Gen.KernelIdeal.Frame
import proofs.«137403_g48799418417398_cont_8to1_c_1139_16_alg».proof.Proof.Gen.KernelIdeal.Skeleton
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The filler a staging buffer is stated with past the array's end: the zero word. Nothing reads it. -/
def zf {S : Shape} : S.Idx → Elt F .f32 := fun _ => Scalar.ofBits .f32 0x00000000#32

/-- The transposed one-hot block's staging buffer at point `t` once fetched: rows `2048 t ‥ 2048 t + 2047` of the
    transposed matrix that lie inside it, `d` on the rows past its end (the last block only). -/
def ohBuf (c : Dev nD) (t : Fin cfg0.N) (d : S2048x1024.Idx → Elt F .f32) : Vec F S2048x1024 .f32 :=
  win0_1.fill (grid0.coords t) d (iblk m c 1 t)

/-- The transposed coefficient block's staging buffer at point `t` once fetched: columns `2048 t ‥ 2048 t + 2047`
    inside the table, `d` past its end. -/
def cfBuf (c : Dev nD) (t : Fin cfg0.N) (d : S16x2048.Idx → Elt F .f32) : Vec F S16x2048 .f32 :=
  win0_2.fill (grid0.coords t) d (iblk m c 2 t)

/-- The transposed x, whole: window 0's one block. -/
def xBuf (c : Dev nD) (t : Fin cfg0.N) : Vec F S26x16x1024 .f32 := iblk m c 0 t

/-- THE ACCUMULATOR after point `n`: zeroed at point 0; at every point but the last the block product added; at the
    last point the product of the blocks with the rows and columns past the arrays' end replaced by zero. -/
def accAt (c : Dev nD) : (n : ℕ) → n < cfg0.N → Vec F S16x1024 .f32
  | 0, hn => k0_pay5 (ohBuf m c ⟨0, hn⟩ zf) (cfBuf m c ⟨0, hn⟩ zf) (k0_pay1 (F := F))
  | n + 1, hn =>
    if n + 1 < 48 then k0_pay5 (ohBuf m c ⟨n + 1, hn⟩ zf) (cfBuf m c ⟨n + 1, hn⟩ zf) (accAt c n (Nat.lt_of_succ_lt hn))
    else k0_pay4 (grid0.coords ⟨n + 1, hn⟩) (ohBuf m c ⟨n + 1, hn⟩ zf) (cfBuf m c ⟨n + 1, hn⟩ zf) (accAt c n (Nat.lt_of_succ_lt hn))

theorem accAt_zero (c : Dev nD) (hn : 0 < cfg0.N) :
    accAt m c 0 hn = k0_pay5 (ohBuf m c ⟨0, hn⟩ zf) (cfBuf m c ⟨0, hn⟩ zf) (k0_pay1 (F := F)) := rfl

theorem accAt_mid (c : Dev nD) (n : ℕ) (hn : n + 1 < cfg0.N) (h : n + 1 < 48) :
    accAt m c (n + 1) hn = k0_pay5 (ohBuf m c ⟨n + 1, hn⟩ zf) (cfBuf m c ⟨n + 1, hn⟩ zf) (accAt m c n (Nat.lt_of_succ_lt hn)) := by
  rw [accAt, if_pos h]

theorem accAt_last (c : Dev nD) (n : ℕ) (hn : n + 1 < cfg0.N) (h : ¬n + 1 < 48) :
    accAt m c (n + 1) hn = k0_pay4 (grid0.coords ⟨n + 1, hn⟩) (ohBuf m c ⟨n + 1, hn⟩ zf) (cfBuf m c ⟨n + 1, hn⟩ zf) (accAt m c n (Nat.lt_of_succ_lt hn)) := by
  rw [accAt, if_neg h]

/-- The last point. -/
abbrev tLast : Fin cfg0.N := ⟨48, by decide⟩

/-- The result block the last point stores: the transposed x times the accumulator, summed over the parameters. -/
def outLast (c : Dev nD) : Vec F S26x1024 .f32 := k0_pay6 (xBuf m c tLast) (accAt m c 48 (by decide))

/-- The scratch operand as a memref. -/
abbrev scM : Memref sig .tc .vmem S16x1024 .f32 := Memref.whole cc0_scratch0

/-- The region invariant before position `n`: before the first point the scratch at anything; afterwards at the
    accumulator the point before left; the generator register at some state throughout. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- The proof data of the one pipeline on core `c`: the arrays as the region finds them; after the body each input's
    buffer as it was fetched (past the arrays' end the zero word, which no obligation states), the result's at the
    block the last point stores; the scratch tracked in the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xBuf m c t
    | ⟨1, _⟩ => ohBuf m c t zf
    | ⟨2, _⟩ => cfBuf m c t zf
    | ⟨3, _⟩ => outLast m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = xBuf m c t := by dsimp only [dats]
theorem after_1 (c : Dev nD) (t : Fin cfg0.N) : (dats m 0 c).after 1 t = ohBuf m c t zf := by dsimp only [dats]
theorem after_2 (c : Dev nD) (t : Fin cfg0.N) : (dats m 0 c).after 2 t = cfBuf m c t zf := by dsimp only [dats]
theorem after_3 (c : Dev nD) (t : Fin cfg0.N) : (dats m 0 c).after 3 t = outLast m c := by dsimp only [dats]

end Cert.KernelIdeal.Hand

end
-- ==== Proof.KIRuns.lean ====
/-
  The kernel body run on any whole staging memrefs, in each of the three cases its conditionals meet on the grid of
  49 points: the first point (the accumulator zeroed, then the first block product added), the points between, and
  the last (the masked block product added, then the result block stored). Each run is stated over the contents the
  buffers hold and leaves the scratch and the result's buffer at the body's own terms of them.
-/
import proofs.«137403_g48799418417398_cont_8to1_c_1139_16_alg».proof.Proof.Gen.KernelIdeal.Frame
import proofs.«137403_g48799418417398_cont_8to1_c_1139_16_alg».proof.Proof.Gen.KernelIdeal.Skeleton
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The branch conditions, from the grid coordinate -/

/-- `program_id == 0`, -/
abbrev condFirst (i : grid0.Coords) : Prop := (Scalar.cmpi .ne (Scalar.extui (Scalar.cmpi .eq (BitVec.ofNat 32 (i 0).val) 0#32)) 0#32) = 1#1
/-- `program_id == 48` (the masked product), -/
abbrev condLast (i : grid0.Coords) : Prop := (Scalar.cmpi .ne (Scalar.extui (Scalar.cmpi .eq (BitVec.ofNat 32 (i 0).val) 48#32)) 0#32) = 1#1
/-- `program_id < 48` (the plain product), -/
abbrev condMid (i : grid0.Coords) : Prop := (Scalar.cmpi .ne (Scalar.extui (Scalar.cmpi .slt (BitVec.ofNat 32 (i 0).val) 48#32)) 0#32) = 1#1
/-- `program_id == 48` again (the result's store). -/
abbrev condOut (i : grid0.Coords) : Prop := k0_cond4 i = 1#1

/-- Each holds exactly where its comparison says, decided over the 49 points. -/
theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 48 :=
  (by decide +kernel : ∀ t : Fin grid0.N, condLast (grid0.coords t) ↔ t.val = 48)
theorem hcondMid : ∀ t : Fin cfg0.N, condMid (grid0.coords t) ↔ t.val < 48 :=
  (by decide +kernel : ∀ t : Fin grid0.N, condMid (grid0.coords t) ↔ t.val < 48)
theorem hcondOut : ∀ t : Fin cfg0.N, condOut (grid0.coords t) ↔ t.val = 48 :=
  (by decide +kernel : ∀ t : Fin grid0.N, condOut (grid0.coords t) ↔ t.val = 48)

/-- The result's window is idle, and not written back, at every point but the last; there it is live and written back. -/
theorem idle3 : ∀ t : Fin cfg0.N, t.val ≠ 48 → cfg0.idle 3 (grid0.coords t) = true :=
  (by decide +kernel : ∀ t : Fin grid0.N, t.val ≠ 48 → cfg0.idle 3 (grid0.coords t) = true)
theorem noFlush3 : ∀ t : Fin cfg0.N, t.val ≠ 48 → (cfg0.win 3).flush t = false :=
  (by decide +kernel : ∀ t : Fin grid0.N, t.val ≠ 48 → win0_3.flush t = false)
theorem live3 : ∀ t : Fin cfg0.N, t.val = 48 → cfg0.idle 3 (grid0.coords t) = false :=
  (by decide +kernel : ∀ t : Fin grid0.N, t.val = 48 → cfg0.idle 3 (grid0.coords t) = false)

/-- The one-hot and coefficient blocks are cut at the arrays' end at the last point only. -/
theorem noClip1 : ∀ t : Fin cfg0.N, t.val < 48 → ∀ a, win0_1.clip (grid0.coords t) a = none :=
  (by decide +kernel : ∀ t : Fin grid0.N, t.val < 48 → ∀ a, win0_1.clip (grid0.coords t) a = none)
theorem noClip2 : ∀ t : Fin cfg0.N, t.val < 48 → ∀ a, win0_2.clip (grid0.coords t) a = none :=
  (by decide +kernel : ∀ t : Fin grid0.N, t.val < 48 → ∀ a, win0_2.clip (grid0.coords t) a = none)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body in each case -/

set_option maxHeartbeats 1000000 in
/-- A point strictly between the first and the last: the accumulator in scratch gains the product of the
    coefficient block and the one-hot block; every staging buffer is left as it was found. -/
theorem run_mid (c : Dev nD) (i : grid0.Coords)
    (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hF : ¬condFirst i) (hL : ¬condLast i) (hM : condMid i) (hO : ¬condOut i)
    (X1 : Vec F S26x16x1024 .f32) (X2 : Vec F S2048x1024 .f32) (X3 : Vec F S16x2048 .f32) (X4 : Vec F S26x1024 .f32) (a : Vec F S16x1024 .f32)
    (E : Set ℕ) (K : PUnit → sProp 𝕄) :
    iprop(owns (c : Thread nD τ) arg1 fullShare X1 ∗ owns (c : Thread nD τ) arg2 fullShare X2 ∗ owns (c : Thread nD τ) arg3 fullShare X3
          ∗ owns (c : Thread nD τ) arg4 fullShare X4 ∗ owns (c : Thread nD τ) arg5 fullShare a
          ∗ (iprop(owns (c : Thread nD τ) arg1 fullShare X1 ∗ owns (c : Thread nD τ) arg2 fullShare X2 ∗ owns (c : Thread nD τ) arg3 fullShare X3
                ∗ owns (c : Thread nD τ) arg4 fullShare X4 ∗ owns (c : Thread nD τ) arg5 fullShare (k0_pay5 X2 X3 a)) -∗ K ⟨⟩))
      ⊢ wp frame (wpE (defs₀ (F := F)) Variants.none c none) E (cc0__coef_kernel i arg1 harg1 arg2 harg2 arg3 harg3 arg4 harg4 arg5 harg5) K := by
  simp only [cc0__coef_kernel_eq_skeleton]; unfold cc0__coef_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hF | exact hL | exact hM | exact hO)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  · iexists _; isplitr
    swap; · iexact H5
    ipureintro
    rw [View.read_writes_eq_canon _ _ _ (fun y => ⟨_, List.mem_singleton_self _, View.mem_set_unit_zero hz2 inb_S16x1024_S16x1024_0_0 y⟩), View.canon_unit_zero hz2]
    simp only [View.readAt_eq_ld, harg2.read_unread, harg3.read_unread, harg5.read_unread,
      View.ld_unit_zero (S := S2048x1024) hz2, View.ld_unit_zero (S := S16x2048) hz2, View.ld_unit_zero (S := S16x1024) hz2]

set_option maxHeartbeats 1000000 in
/-- The first point: the scratch, holding anything, is zeroed, and then gains the first block product. -/
theorem run_first (c : Dev nD) (i : grid0.Coords)
    (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hF : condFirst i) (hL : ¬condLast i) (hM : condMid i) (hO : ¬condOut i)
    (X1 : Vec F S26x16x1024 .f32) (X2 : Vec F S2048x1024 .f32) (X3 : Vec F S16x2048 .f32) (X4 : Vec F S26x1024 .f32)
    (E : Set ℕ) (K : PUnit → sProp 𝕄) :
    iprop(owns (c : Thread nD τ) arg1 fullShare X1 ∗ owns (c : Thread nD τ) arg2 fullShare X2 ∗ owns (c : Thread nD τ) arg3 fullShare X3
          ∗ owns (c : Thread nD τ) arg4 fullShare X4 ∗ (∃ d, owns (c : Thread nD τ) arg5 fullShare d)
          ∗ (iprop(owns (c : Thread nD τ) arg1 fullShare X1 ∗ owns (c : Thread nD τ) arg2 fullShare X2 ∗ owns (c : Thread nD τ) arg3 fullShare X3
                ∗ owns (c : Thread nD τ) arg4 fullShare X4 ∗ owns (c : Thread nD τ) arg5 fullShare (k0_pay5 X2 X3 (k0_pay1 (F := F)))) -∗ K ⟨⟩))
      ⊢ wp frame (wpE (defs₀ (F := F)) Variants.none c none) E (cc0__coef_kernel i arg1 harg1 arg2 harg2 arg3 harg3 arg4 harg4 arg5 harg5) K := by
  simp only [cc0__coef_kernel_eq_skeleton]; unfold cc0__coef_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  obtain rfl := harg1.eq_unread hf1; obtain rfl := harg2.eq_unread hf2; obtain rfl := harg3.eq_unread hf3
  obtain rfl := harg4.eq_unread hf4
  sl_exec (disch := first | exact hF | exact hL | exact hM | exact hO)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  · iexists _; isplitr
    swap; · iexact H5
    ipureintro
    rw [View.read_writes_eq_canon _ _ _ (fun y => ⟨_, List.mem_cons_self .., View.mem_set_unit_zero hz2 inb_S16x1024_S16x1024_0_0 y⟩), View.canon_cons_unit_zero hz2]
    sl_unfold_words
    simp only [View.readAt_eq_ld, harg2.read_unread, harg3.read_unread,
      View.ld_unit_zero (S := S2048x1024) hz2, View.ld_unit_zero (S := S16x2048) hz2, View.ld_unit_zero (S := S16x1024) hz2,
      View.readCov_unit_zero (S := S16x1024) _ hz2]

set_option maxHeartbeats 1000000 in
/-- The last point: the accumulator gains the product of the two blocks with the rows and columns past the arrays'
    end replaced by zero, and the result's buffer, holding anything, is stored with the transposed x times that
    accumulator summed over the parameters. -/
theorem run_last (c : Dev nD) (i : grid0.Coords)
    (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hF : ¬condFirst i) (hL : condLast i) (hM : ¬condMid i) (hO : condOut i)
    (X1 : Vec F S26x16x1024 .f32) (X2 : Vec F S2048x1024 .f32) (X3 : Vec F S16x2048 .f32) (a : Vec F S16x1024 .f32)
    (E : Set ℕ) (K : PUnit → sProp 𝕄) :
    iprop(owns (c : Thread nD τ) arg1 fullShare X1 ∗ owns (c : Thread nD τ) arg2 fullShare X2 ∗ owns (c : Thread nD τ) arg3 fullShare X3
          ∗ (∃ d, owns (c : Thread nD τ) arg4 fullShare d) ∗ owns (c : Thread nD τ) arg5 fullShare a
          ∗ (iprop(owns (c : Thread nD τ) arg1 fullShare X1 ∗ owns (c : Thread nD τ) arg2 fullShare X2 ∗ owns (c : Thread nD τ) arg3 fullShare X3
                ∗ owns (c : Thread nD τ) arg4 fullShare (k0_pay6 X1 (k0_pay4 i X2 X3 a)) ∗ owns (c : Thread nD τ) arg5 fullShare (k0_pay4 i X2 X3 a)) -∗ K ⟨⟩))
      ⊢ wp frame (wpE (defs₀ (F := F)) Variants.none c none) E (cc0__coef_kernel i arg1 harg1 arg2 harg2 arg3 harg3 arg4 harg4 arg5 harg5) K := by
  simp only [cc0__coef_kernel_eq_skeleton]; unfold cc0__coef_kernel_skel
  unfold owns
  iintro ⟨⟨%f1, %hf1, H1⟩, ⟨%f2, %hf2, H2⟩, ⟨%f3, %hf3, H3⟩, ⟨%d4, %f4, -, H4⟩, ⟨%f5, %hf5, H5⟩, Hk⟩
  obtain rfl := harg1.eq_unread hf1; obtain rfl := harg2.eq_unread hf2; obtain rfl := harg3.eq_unread hf3
  obtain rfl := harg5.eq_unread hf5
  sl_exec (disch := first | exact hF | exact hL | exact hM | exact hO)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz2 inb_S26x1024_S26x1024_0_0 y⟩), View.canon_unit_zero hz2]
    sl_unfold_words
    simp only [View.readAt_eq_ld, harg1.read_unread, harg2.read_unread, harg3.read_unread, harg5.read_unread,
      View.ld_unit_zero (S := S26x16x1024) hz3, View.ld_unit_zero (S := S2048x1024) hz2, View.ld_unit_zero (S := S16x2048) hz2, View.ld_unit_zero (S := S16x1024) hz2,
      View.readCov_unit_zero (S := S16x1024) _ hz2]
  · iexists _; isplitr
    swap; · iexact H5
    ipureintro
    sl_unfold_words
    rw [View.read_writes_eq_canon _ _ _ (fun y => ⟨_, List.mem_singleton_self _, View.mem_set_unit_zero hz2 inb_S16x1024_S16x1024_0_0 y⟩), View.canon_unit_zero hz2]
    simp only [View.readAt_eq_ld, harg2.read_unread, harg3.read_unread, harg5.read_unread,
      View.ld_unit_zero (S := S2048x1024) hz2, View.ld_unit_zero (S := S16x2048) hz2, View.ld_unit_zero (S := S16x1024) hz2]

end Cert.KernelIdeal.Hand

end
-- ==== Proof.KIIndep.lean ====
/-
  The accumulator does not depend on the words a cut fetch leaves past the arrays' end: before the last point the
  one-hot and coefficient blocks lie inside their arrays, so their buffers hold no such word; at the last point the
  kernel replaces rows and columns from 1696 on (100000 − 48 · 2048) by zero before it multiplies.
-/
import proofs.«137403_g48799418417398_cont_8to1_c_1139_16_alg».proof.Proof.KIData
import proofs.«137403_g48799418417398_cont_8to1_c_1139_16_alg».proof.Proof.KIRuns
import Idealize.ShloMosaic.Lib.ValueIdx
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- Before the last point the one-hot block is inside its array: the fetch fills the whole buffer. -/
theorem ohBuf_indep (c : Dev nD) (t : Fin cfg0.N) (ht : t.val < 48) (d d' : S2048x1024.Idx → Elt F .f32) :
    ohBuf m c t d = ohBuf m c t d' := by
  funext j
  have hm : win0_1.moved (grid0.coords t) j = true :=
    (win0_1.moved_iff _ j).mpr fun a => by
      have := (j a).isLt; unfold Window.xsize; rw [noClip1 t ht a]; exact this
  unfold ohBuf Window.fill; rw [dif_pos hm, dif_pos hm]

/-- Likewise the coefficient block. -/
theorem cfBuf_indep (c : Dev nD) (t : Fin cfg0.N) (ht : t.val < 48) (d d' : S16x2048.Idx → Elt F .f32) :
    cfBuf m c t d = cfBuf m c t d' := by
  funext j
  have hm : win0_2.moved (grid0.coords t) j = true :=
    (win0_2.moved_iff _ j).mpr fun a => by
      have := (j a).isLt; unfold Window.xsize; rw [noClip2 t ht a]; exact this
  unfold cfBuf Window.fill; rw [dif_pos hm, dif_pos hm]

open Idealize.ShloMosaic.ValueIdx

/-- The word the last point compares rows and columns with: 100000 − 48 · 2048 = 1696. -/
private theorem edge_word :
    Scalar.subi 100000#32 (Scalar.muli (BitVec.ofNat 32 ((grid0.coords (tLast)) 0).val) 2048#32) = 1696#32 := by
  decide +kernel

/-- What the last point moves of a one-hot block: 1696 rows, every column. -/
private theorem xsize1_last : ∀ a, win0_1.xsize (grid0.coords tLast) a = ![1696, 1024] a := by
  decide +kernel

/-- What the last point moves of a coefficient block: every row, 1696 columns. -/
private theorem xsize2_last : ∀ a, win0_2.xsize (grid0.coords tLast) a = ![16, 1696] a := by
  decide +kernel

/-- A lane of the mask "coordinate < 1696" that is set has its coordinate below 1696. -/
private theorem lane_lt (n : ℕ) (hn : n < 2048)
    (h : IntOp.cmpi .slt (BitVec.ofNat 32 n) 1696#32 = 1#1) : n < 1696 := by
  have h1 : (BitVec.ofNat 32 n).toNat = n := by
    rw [BitVec.toNat_ofNat]; exact Nat.mod_eq_of_lt (by omega)
  have := (StableHlo.Predicate.slt_iff_toNat (a := BitVec.ofNat 32 n) (b := 1696#32) (by rw [h1]; omega) (by decide)).mp h
  rw [h1] at this
  exact this

/-- The one-hot block with the rows from 1696 on replaced by zero, at the last point: the same whatever the
    buffer held past the array's end. -/
private theorem oh_masked (c : Dev nD) (d d' : S2048x1024.Idx → Elt F .f32) (z : F .f32) :
    select (cmpi .slt (iota .tc S2048x1024 32 [0] iota_S2048x1024_d0_w32)
        (broadcast S2048x1024 (Scalar.subi 100000#32 (Scalar.muli (BitVec.ofNat 32 ((grid0.coords tLast) 0).val) 2048#32))))
      (k0_pay2 (ohBuf m c tLast d)) (broadcast S2048x1024 z)
    = select (cmpi .slt (iota .tc S2048x1024 32 [0] iota_S2048x1024_d0_w32)
        (broadcast S2048x1024 (Scalar.subi 100000#32 (Scalar.muli (BitVec.ofNat 32 ((grid0.coords tLast) 0).val) 2048#32))))
      (k0_pay2 (ohBuf m c tLast d')) (broadcast S2048x1024 z) := by
  funext j
  obtain ⟨a, b, rfl⟩ : ∃ (a : Fin 2048) (b : Fin 1024), j = ix2 a b := ⟨j 0, j 1, eq_ix2 j⟩
  rw [select_apply, select_apply]
  have hbit : cmpi .slt (iota .tc S2048x1024 32 [0] iota_S2048x1024_d0_w32)
        (broadcast S2048x1024 (Scalar.subi 100000#32 (Scalar.muli (BitVec.ofNat 32 ((grid0.coords tLast) 0).val) 2048#32))) (ix2 a b)
      = IntOp.cmpi .slt (BitVec.ofNat 32 a.val) 1696#32 := by
    show IntOp.cmpi .slt (iota .tc S2048x1024 32 [0] iota_S2048x1024_d0_w32 (ix2 a b)) (broadcast S2048x1024 _ (ix2 a b)) = _
    rw [iota_single_apply, broadcast_apply, edge_word]
  rw [hbit]
  by_cases hb : IntOp.cmpi .slt (BitVec.ofNat 32 a.val) 1696#32 = 1#1
  · have ha : a.val < 1696 := lane_lt a.val a.isLt hb
    have hmv : win0_1.moved (grid0.coords tLast) (ix2 a b) = true :=
      (win0_1.moved_iff _ _).mpr fun ax => by
        rw [xsize1_last ax]
        match ax with
        | ⟨0, _⟩ => exact ha
        | ⟨1, _⟩ => exact b.isLt
    have hv : k0_pay2 (ohBuf m c tLast d) (ix2 a b) = k0_pay2 (ohBuf m c tLast d') (ix2 a b) := by
      unfold k0_pay2; rw [shapeCast_self, shapeCast_self]
      unfold ohBuf Window.fill; rw [dif_pos hmv, dif_pos hmv]
    rw [hv]
  · rw [eq_zero_of_ne_one hb, select_zero, select_zero]

/-- The coefficient block with the columns from 1696 on replaced by zero, at the last point: the same whatever
    the buffer held past the table's end. -/
private theorem cf_masked (c : Dev nD) (d d' : S16x2048.Idx → Elt F .f32) (z : F .f32) :
    select (cmpi .slt (iota .tc S16x2048 32 [1] iota_S16x2048_d1_w32)
        (broadcast S16x2048 (Scalar.subi 100000#32 (Scalar.muli (BitVec.ofNat 32 ((grid0.coords tLast) 0).val) 2048#32))))
      (k0_pay3 (cfBuf m c tLast d)) (broadcast S16x2048 z)
    = select (cmpi .slt (iota .tc S16x2048 32 [1] iota_S16x2048_d1_w32)
        (broadcast S16x2048 (Scalar.subi 100000#32 (Scalar.muli (BitVec.ofNat 32 ((grid0.coords tLast) 0).val) 2048#32))))
      (k0_pay3 (cfBuf m c tLast d')) (broadcast S16x2048 z) := by
  funext j
  obtain ⟨a, b, rfl⟩ : ∃ (a : Fin 16) (b : Fin 2048), j = ix2 a b := ⟨j 0, j 1, eq_ix2 j⟩
  rw [select_apply, select_apply]
  have hbit : cmpi .slt (iota .tc S16x2048 32 [1] iota_S16x2048_d1_w32)
        (broadcast S16x2048 (Scalar.subi 100000#32 (Scalar.muli (BitVec.ofNat 32 ((grid0.coords tLast) 0).val) 2048#32))) (ix2 a b)
      = IntOp.cmpi .slt (BitVec.ofNat 32 b.val) 1696#32 := by
    show IntOp.cmpi .slt (iota .tc S16x2048 32 [1] iota_S16x2048_d1_w32 (ix2 a b)) (broadcast S16x2048 _ (ix2 a b)) = _
    rw [iota_single_apply, broadcast_apply, edge_word]
  rw [hbit]
  by_cases hb : IntOp.cmpi .slt (BitVec.ofNat 32 b.val) 1696#32 = 1#1
  · have hlt : b.val < 1696 := lane_lt b.val b.isLt hb
    have hmv : win0_2.moved (grid0.coords tLast) (ix2 a b) = true :=
      (win0_2.moved_iff _ _).mpr fun ax => by
        rw [xsize2_last ax]
        match ax with
        | ⟨0, _⟩ => exact a.isLt
        | ⟨1, _⟩ => exact hlt
    have hv : k0_pay3 (cfBuf m c tLast d) (ix2 a b) = k0_pay3 (cfBuf m c tLast d') (ix2 a b) := by
      unfold k0_pay3; rw [shapeCast_self, shapeCast_self]
      unfold cfBuf Window.fill; rw [dif_pos hmv, dif_pos hmv]
    rw [hv]
  · rw [eq_zero_of_ne_one hb, select_zero, select_zero]

/-- At the last point the masked product reads the two buffers only on the rows and columns inside the arrays. -/
theorem pay4_indep (c : Dev nD) (t : Fin cfg0.N) (ht : t.val = 48) (d1 d1' : S2048x1024.Idx → Elt F .f32)
    (d2 d2' : S16x2048.Idx → Elt F .f32) (a : Vec F S16x1024 .f32) :
    k0_pay4 (grid0.coords t) (ohBuf m c t d1) (cfBuf m c t d2) a
      = k0_pay4 (grid0.coords t) (ohBuf m c t d1') (cfBuf m c t d2') a := by
  obtain rfl : t = tLast := Fin.ext ht
  unfold k0_pay4
  dsimp only
  rw [oh_masked m c d1 d1', cf_masked m c d2 d2']

end Cert.KernelIdeal.Hand

end
-- ==== Proof.KIBody.lean ====
/-
  The frame of the kernel's program: at every grid point the body, run on what the pipeline hands it, leaves the
  accumulator one block product further and every staging buffer as the proof data says; hence every weakly fair
  execution of @main terminates, faults nowhere, and leaves the three arguments as they were — with the result
  array after the run named.
-/
import proofs.«137403_g48799418417398_cont_8to1_c_1139_16_alg».proof.Proof.KIData
import proofs.«137403_g48799418417398_cont_8to1_c_1139_16_alg».proof.Proof.KIRuns
import proofs.«137403_g48799418417398_cont_8to1_c_1139_16_alg».proof.Proof.KIIndep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One step of the accumulator, whatever a cut fetch left past the arrays' end -/

theorem accAt_step_first (c : Dev nD) (t : Fin cfg0.N) (h0 : t.val = 0) (d1 : S2048x1024.Idx → Elt F .f32) (d2 : S16x2048.Idx → Elt F .f32) :
    accAt m c t.val t.isLt = k0_pay5 (ohBuf m c t d1) (cfBuf m c t d2) (k0_pay1 (F := F)) := by
  obtain ⟨n, hn⟩ := t
  obtain rfl : n = 0 := h0
  rw [accAt_zero, ohBuf_indep m c ⟨0, hn⟩ (show (0 : ℕ) < 48 by decide) d1 zf, cfBuf_indep m c ⟨0, hn⟩ (show (0 : ℕ) < 48 by decide) d2 zf]

theorem accAt_step_mid (c : Dev nD) (t : Fin cfg0.N) (h0 : t.val ≠ 0) (h : t.val < 48) (d1 : S2048x1024.Idx → Elt F .f32) (d2 : S16x2048.Idx → Elt F .f32) :
    accAt m c t.val t.isLt = k0_pay5 (ohBuf m c t d1) (cfBuf m c t d2) (accAt m c (t.val - 1) (Nat.lt_of_le_of_lt (Nat.sub_le _ _) t.isLt)) := by
  obtain ⟨n, hn⟩ := t
  cases n with
  | zero => exact absurd rfl h0
  | succ n =>
    rw [accAt_mid m c n hn h, ohBuf_indep m c ⟨n + 1, hn⟩ h d1 zf, cfBuf_indep m c ⟨n + 1, hn⟩ h d2 zf]
    rfl

theorem accAt_step_last (c : Dev nD) (t : Fin cfg0.N) (h : t.val = 48) (d1 : S2048x1024.Idx → Elt F .f32) (d2 : S16x2048.Idx → Elt F .f32) :
    accAt m c t.val t.isLt = k0_pay4 (grid0.coords t) (ohBuf m c t d1) (cfBuf m c t d2) (accAt m c (t.val - 1) (Nat.lt_of_le_of_lt (Nat.sub_le _ _) t.isLt)) := by
  obtain ⟨n, hn⟩ := t
  cases n with
  | zero => exact absurd h (show ¬(0 : ℕ) = 48 by decide)
  | succ n =>
    have hn48 : ¬n + 1 < 48 := by simp only at h; omega
    rw [accAt_last m c n hn hn48, pay4_indep m c ⟨n + 1, hn⟩ h d1 zf d2 zf]
    rfl

/-! ## What the body finds -/

/-- Each window's current staging memref at point `t`, as the pipeline passes it, and its wholeness. -/
abbrev ms0 (t : Fin cfg0.N) : Memref sig .tc .vmem S26x16x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S26x1024 .f32 := win0_3.stage (cfg0.slots t 3)
abbrev hs3 (t : Fin cfg0.N) : (ms3 t).IsWhole := hstage0_3 ((cfg0.slots t 3).cast nbuf0_3)

/-- The class invariant with the scratch as a memref owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- x's buffer holds the transposed x at every point (fetched at the first, left in place after). -/
theorem before_0 (c : Dev nD) (t : Fin cfg0.N) (d) : (dats m 0 c).before 0 t d = xBuf m c t :=
  before0_0_of m (dats m 0 c) (A_eq m c 0) (fun t => by rw [after_0]; rfl) t d

/-- The one-hot and coefficient buffers are fetched at every point: the block inside the array, `d` past its end. -/
theorem before_1 (c : Dev nD) (t : Fin cfg0.N) (d) : (dats m 0 c).before 1 t d = ohBuf m c t d := by
  unfold Dat.before; rw [if_pos (fetch0_1 t)]; unfold Dat.fetched Dat.blockOf ohBuf iblk; rw [A_eq]; try rfl
theorem before_2 (c : Dev nD) (t : Fin cfg0.N) (d) : (dats m 0 c).before 2 t d = cfBuf m c t d := by
  unfold Dat.before; rw [if_pos (fetch0_2 t)]; unfold Dat.fetched Dat.blockOf cfBuf iblk; rw [A_eq]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

/-- The inputs' buffers go back as the proof data states them: x's at the transposed x; the two cut windows' at
    their blocks inside the arrays, whatever lies past. -/
theorem leaves_0 (c : Dev nD) (t : Fin cfg0.N) :
    (dats m 0 c).leaves 0 t = owns (c : Thread nD τ) (ms0 t) fullShare (xBuf m c t) := by
  unfold Dat.leaves; rw [show cfg0.idle 0 (grid0.coords t) = false from rfl, show cfg0.loose 0 = false from rfl]; simp only [after_0]
theorem leaves_1 (c : Dev nD) (t : Fin cfg0.N) :
    (dats m 0 c).leaves 1 t = iprop(∃ d, owns (c : Thread nD τ) (ms1 t) fullShare (ohBuf m c t d)) := by
  unfold Dat.leaves; rw [show cfg0.idle 1 (grid0.coords t) = false from rfl, show cfg0.loose 1 = true from rfl]; simp only [after_1]
  unfold ohBuf; simp only [Window.cut_fill]
  try rfl
theorem leaves_2 (c : Dev nD) (t : Fin cfg0.N) :
    (dats m 0 c).leaves 2 t = iprop(∃ d, owns (c : Thread nD τ) (ms2 t) fullShare (cfBuf m c t d)) := by
  unfold Dat.leaves; rw [show cfg0.idle 2 (grid0.coords t) = false from rfl, show cfg0.loose 2 = true from rfl]; simp only [after_2]
  unfold cfBuf; simp only [Window.cut_fill]
  try rfl
/-- The result's buffer goes back untouched before the last point, and at the result block at the last. -/
theorem leaves_3_last (c : Dev nD) (t : Fin cfg0.N) (h : t.val = 48) :
    (dats m 0 c).leaves 3 t = owns (c : Thread nD τ) (ms3 t) fullShare (outLast m c) := by
  unfold Dat.leaves; rw [live3 t h, show cfg0.loose 3 = false from rfl]; simp only [after_3]

set_option maxHeartbeats 1600000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, leaves_0, leaves_1, leaves_2]
  rw [show (dats m 0 c).owesAt () t.succ = (dats m 0 c).owesAt () t.castSucc from rfl]
  rw [show (dats m 0 c).Φ t.succ = PhiS m c (t.val + 1) t.isLt from rfl, PhiS_succ]
  have hN : t.val < 49 := lt_of_lt_of_eq t.isLt (show cfg0.N = 49 from N_0)
  by_cases h0 : t.val = 0
  · -- the first point
    have hF : condFirst (grid0.coords t) := (hcondFirst t).mpr h0
    have hL : ¬condLast (grid0.coords t) := fun h => by have := (hcondLast t).mp h; omega
    have hM : condMid (grid0.coords t) := (hcondMid t).mpr (by omega)
    have hO : ¬condOut (grid0.coords t) := fun h => by have := (hcondOut t).mp h; omega
    rw [Dat.leaves_idle (dats m 0 c) 3 t (idle3 t (by omega)) (noFlush3 t (by omega))]
    rw [PhiS_castSucc m c t, PhiS_zero m c _ _ h0, PhiA_eq]
    iintro ⟨⟨HS, Hg⟩, Ho, ⟨%d0, H0⟩, ⟨%d1, H1⟩, ⟨%d2, H2⟩, ⟨%d3, H3⟩⟩
    iapply (run_first c (grid0.coords t) (ms0 t) (hs0 t) (ms1 t) (hs1 t) (ms2 t) (hs2 t) (ms3 t) (hs3 t) scM (Memref.isWhole_whole _)
      hF hL hM hO (xBuf m c t) (ohBuf m c t d1) (cfBuf m c t d2) ((dats m 0 c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · rw [accAt_step_first m c t h0 d1 d2]; iexact HS
      iexact Hg
    isplitl [Ho]; · iexact Ho
    isplitl [H0]; · iexact H0
    isplitl [H1]; · iexists d1; iexact H1
    isplitl [H2]; · iexists d2; iexact H2
    iexists d3; iexact H3
  · by_cases h48 : t.val = 48
    · -- the last point
      have hF : ¬condFirst (grid0.coords t) := fun h => h0 ((hcondFirst t).mp h)
      have hL : condLast (grid0.coords t) := (hcondLast t).mpr h48
      have hM : ¬condMid (grid0.coords t) := fun h => by have := (hcondMid t).mp h; omega
      have hO : condOut (grid0.coords t) := (hcondOut t).mpr h48
      rw [leaves_3_last m c t h48]
      rw [PhiS_castSucc m c t, PhiS_pos m c _ _ h0]
      iintro ⟨⟨HS, Hg⟩, Ho, ⟨%d0, H0⟩, ⟨%d1, H1⟩, ⟨%d2, H2⟩, ⟨%d3, H3⟩⟩
      iapply (run_last c (grid0.coords t) (ms0 t) (hs0 t) (ms1 t) (hs1 t) (ms2 t) (hs2 t) (ms3 t) (hs3 t) scM (Memref.isWhole_whole _)
        hF hL hM hO (xBuf m c t) (ohBuf m c t d1) (cfBuf m c t d2) (accAt m c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      rw [← accAt_step_last m c t h48 d1 d2]
      isplitl [HS Hg]
      · isplitl [HS]; · iexact HS
        iexact Hg
      isplitl [Ho]; · iexact Ho
      isplitl [H0]; · iexact H0
      isplitl [H1]; · iexists d1; iexact H1
      isplitl [H2]; · iexists d2; iexact H2
      obtain rfl : t = tLast := Fin.ext h48
      iexact H3
    · -- a point between
      have hF : ¬condFirst (grid0.coords t) := fun h => h0 ((hcondFirst t).mp h)
      have hL : ¬condLast (grid0.coords t) := fun h => h48 ((hcondLast t).mp h)
      have hM : condMid (grid0.coords t) := (hcondMid t).mpr (by omega)
      have hO : ¬condOut (grid0.coords t) := fun h => h48 ((hcondOut t).mp h)
      rw [Dat.leaves_idle (dats m 0 c) 3 t (idle3 t h48) (noFlush3 t h48)]
      rw [PhiS_castSucc m c t, PhiS_pos m c _ _ h0]
      iintro ⟨⟨HS, Hg⟩, Ho, ⟨%d0, H0⟩, ⟨%d1, H1⟩, ⟨%d2, H2⟩, ⟨%d3, H3⟩⟩
      iapply (run_mid c (grid0.coords t) (ms0 t) (hs0 t) (ms1 t) (hs1 t) (ms2 t) (hs2 t) (ms3 t) (hs3 t) scM (Memref.isWhole_whole _)
        hF hL hM hO (xBuf m c t) (ohBuf m c t d1) (cfBuf m c t d2) ((dats m 0 c).before 3 t d3)
        (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · rw [accAt_step_mid m c t h0 (by omega) d1 d2]; iexact HS
        iexact Hg
      isplitl [Ho]; · iexact Ho
      isplitl [H0]; · iexact H0
      isplitl [H1]; · iexists d1; iexact H1
      isplitl [H2]; · iexists d2; iexact H2
      iexists d3; iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulator's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 49 := N_0; omega), PhiA_eq]
  iintro ⟨HS, Hg⟩
  isplitl [HS]
  · iexists _; iexact HS
  iexact Hg

/-! ## The run and the frame -/

set_option backward.isDefEq.respectTransparency.types false in
/-- Every weakly fair execution of @main terminates, and every final state has each array of the pipeline at what the
    proof data's write-backs leave and every other unscoped buffer as the transpose after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The three arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KIPayIdeal.lean ====
/-
  The kernel's stored values read at an index, on the extended reals: the zeroed accumulator; the accumulator plus a
  block product; the same with rows and columns from 1696 on replaced by zero; and the transposed x times the
  accumulator summed over the sixteen parameters.
-/
import proofs.«137403_g48799418417398_cont_8to1_c_1139_16_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

namespace Cert.KernelIdeal.Hand

open Cert.KernelIdeal Cert.KernelIdeal.Gen
open Idealize.ShloMosaic Idealize.ShloMosaic.ValueIdx

/-! ## The block product read at an index

The product contracts axis 1 of its left operand [16, 2048] with axis 0 of its right operand [2048, 1024]: at output
index (p, q) and contraction coordinate k the operands are read at (p, k) and (k, q). -/

private theorem mm_lhs_0 (i : S16x1024.Idx) (k : dot_S16x2048_S2048x1024_S16x1024_1_0_0_1_n_n.contr.Idx) :
    (dot_S16x2048_S2048x1024_S16x1024_1_0_0_1_n_n.lhsIdx i k 0).val = (i 0).val := by
  unfold DotDims.lhsIdx
  rw [dif_neg (show ¬(0 : Fin S16x2048.rank) ∈ dot_S16x2048_S2048x1024_S16x1024_1_0_0_1_n_n.lhsBatch by decide), dif_pos (show (0 : Fin S16x2048.rank) ∈ dot_S16x2048_S2048x1024_S16x1024_1_0_0_1_n_n.lhsNonContracting by decide)]
  rfl
private theorem mm_lhs_1 (i : S16x1024.Idx) (k : dot_S16x2048_S2048x1024_S16x1024_1_0_0_1_n_n.contr.Idx) :
    (dot_S16x2048_S2048x1024_S16x1024_1_0_0_1_n_n.lhsIdx i k 1).val = (k ⟨0, by decide⟩).val :=
  dot_S16x2048_S2048x1024_S16x1024_1_0_0_1_n_n.lhsIdx_val_of_single rfl i k
private theorem mm_rhs_0 (i : S16x1024.Idx) (k : dot_S16x2048_S2048x1024_S16x1024_1_0_0_1_n_n.contr.Idx) :
    (dot_S16x2048_S2048x1024_S16x1024_1_0_0_1_n_n.rhsIdx i k 0).val = (k ⟨0, by decide⟩).val :=
  dot_S16x2048_S2048x1024_S16x1024_1_0_0_1_n_n.rhsIdx_val_of_single rfl i k
private theorem mm_rhs_1 (i : S16x1024.Idx) (k : dot_S16x2048_S2048x1024_S16x1024_1_0_0_1_n_n.contr.Idx) :
    (dot_S16x2048_S2048x1024_S16x1024_1_0_0_1_n_n.rhsIdx i k 1).val = (i 1).val := by
  unfold DotDims.rhsIdx
  rw [dif_neg (show ¬(1 : Fin S2048x1024.rank) ∈ dot_S16x2048_S2048x1024_S16x1024_1_0_0_1_n_n.rhsBatch by decide), dif_pos (show (1 : Fin S2048x1024.rank) ∈ dot_S16x2048_S2048x1024_S16x1024_1_0_0_1_n_n.rhsNonContracting by decide)]
  rfl

/-- The block product into the zero accumulator, at (p, q): the sum over the 2048 users of the block. -/
private theorem mm_apply (L : FVec Ideal S16x2048 .f32) (R : FVec Ideal S2048x1024 .f32) (p : Fin 16) (q : Fin 1024) :
    (matmul dot_S16x2048_S2048x1024_S16x1024_1_0_0_1_n_n none L R (constant (F := Ideal) S16x1024 .f32 0x00000000#32) (ix2 p q) : EReal)
      = ∑ j : Fin 2048, (L (ix2 p j) : EReal) * (R (ix2 j q) : EReal) := by
  simp only [matmul]
  rw [Ideal.matmul_constant_zero_apply, ← Equiv.sum_comp (ValueIdx.contrEquiv1 dot_S16x2048_S2048x1024_S16x1024_1_0_0_1_n_n 2048 rfl rfl).symm]
  refine Finset.sum_congr rfl fun k _ => ?_
  have hk := ValueIdx.contrEquiv1_symm_val dot_S16x2048_S2048x1024_S16x1024_1_0_0_1_n_n 2048 rfl rfl k
  have el : dot_S16x2048_S2048x1024_S16x1024_1_0_0_1_n_n.lhsIdx (ix2 p q) ((ValueIdx.contrEquiv1 dot_S16x2048_S2048x1024_S16x1024_1_0_0_1_n_n 2048 rfl rfl).symm k) = ix2 p k := funext fun a => Fin.ext (by
    match a with
    | ⟨0, _⟩ => exact mm_lhs_0 _ _
    | ⟨1, _⟩ => exact (mm_lhs_1 _ _).trans hk)
  have er : dot_S16x2048_S2048x1024_S16x1024_1_0_0_1_n_n.rhsIdx (ix2 p q) ((ValueIdx.contrEquiv1 dot_S16x2048_S2048x1024_S16x1024_1_0_0_1_n_n 2048 rfl rfl).symm k) = ix2 k q := funext fun a => Fin.ext (by
    match a with
    | ⟨0, _⟩ => exact (mm_rhs_0 _ _).trans hk
    | ⟨1, _⟩ => exact mm_rhs_1 _ _)
  rw [el, er]

theorem pay1_apply (j : S16x1024.Idx) : (k0_pay1 (F := Ideal) j : EReal) = 0 := by
  unfold k0_pay1
  rw [shapeCast_self]
  exact Ideal.ofBits_zero_f32

theorem pay5_apply (X2 : Vec Ideal S2048x1024 .f32) (X3 : Vec Ideal S16x2048 .f32) (a : Vec Ideal S16x1024 .f32)
    (p : Fin 16) (q : Fin 1024) :
    (k0_pay5 X2 X3 a (ix2 p q) : EReal) = (a (ix2 p q) : EReal) + ∑ j : Fin 2048, (X3 (ix2 p j) : EReal) * (X2 (ix2 j q) : EReal) := by
  unfold k0_pay5 k0_pay2 k0_pay3
  simp only [shapeCast_self]
  rw [addf_apply, mm_apply]

/-! ## The edge block's masks

At the last grid point the words `100000 - 48 * 2048` are `1696`; a coordinate below 2048, as a 32-bit word, is
below `1696` as a signed word exactly when the natural number is. -/

private theorem edge_len (i : grid0.Coords) (hi : (i 0).val = 48) :
    Scalar.subi 100000#32 (Scalar.muli (BitVec.ofNat 32 (i 0).val) 2048#32) = 1696#32 := by
  rw [hi]; decide

private theorem lt_bit (j : Nat) (hj : j < 2048) :
    IntOp.cmpi .slt (BitVec.ofNat 32 j) 1696#32 = if j < 1696 then 1#1 else 0#1 := by
  have hn : (BitVec.ofNat 32 j).toNat = j := by rw [BitVec.toNat_ofNat]; omega
  have hb : (1696#32 : BitVec 32).toNat = 1696 := rfl
  have hiff := StableHlo.Predicate.slt_iff_toNat (a := BitVec.ofNat 32 j) (b := 1696#32) (by rw [hn]; omega) (by decide)
  rw [hn, hb] at hiff
  split
  · next h => exact hiff.mpr h
  · next h => exact eq_zero_of_ne_one fun h1 => h (hiff.mp h1)

/-- The right operand with its rows from `n = 1696` on replaced by zero, at (j, q). -/
private theorem rowMask_apply (n : BitVec 32) (hn : n = 1696#32) (X : Vec Ideal S2048x1024 .f32) (j : Fin 2048) (q : Fin 1024) :
    (select (cmpi .slt (iota .tc S2048x1024 32 [0] iota_S2048x1024_d0_w32) (broadcast S2048x1024 n)) X
        (broadcast S2048x1024 (Scalar.ofBits (F := Ideal) .f32 0x00000000#32)) (ix2 j q) : EReal)
      = if j.val < 1696 then (X (ix2 j q) : EReal) else 0 := by
  subst hn
  rw [select_apply]
  show Scalar.select (IntOp.cmpi .slt (iota .tc S2048x1024 32 [0] iota_S2048x1024_d0_w32 (ix2 j q)) 1696#32) (X (ix2 j q)) (Ideal.ofBits .f32 0x00000000#32) = _
  rw [iota_single_apply]
  show Scalar.select (IntOp.cmpi .slt (BitVec.ofNat 32 j.val) 1696#32) (X (ix2 j q)) (Ideal.ofBits .f32 0x00000000#32) = _
  rw [lt_bit j.val j.isLt]
  split
  · exact select_one _ _
  · exact (select_zero _ _).trans Ideal.ofBits_zero_f32

/-- The left operand with its columns from `n = 1696` on replaced by zero, at (p, j). -/
private theorem colMask_apply (n : BitVec 32) (hn : n = 1696#32) (X : Vec Ideal S16x2048 .f32) (p : Fin 16) (j : Fin 2048) :
    (select (cmpi .slt (iota .tc S16x2048 32 [1] iota_S16x2048_d1_w32) (broadcast S16x2048 n)) X
        (broadcast S16x2048 (Scalar.ofBits (F := Ideal) .f32 0x00000000#32)) (ix2 p j) : EReal)
      = if j.val < 1696 then (X (ix2 p j) : EReal) else 0 := by
  subst hn
  rw [select_apply]
  show Scalar.select (IntOp.cmpi .slt (iota .tc S16x2048 32 [1] iota_S16x2048_d1_w32 (ix2 p j)) 1696#32) (X (ix2 p j)) (Ideal.ofBits .f32 0x00000000#32) = _
  rw [iota_single_apply]
  show Scalar.select (IntOp.cmpi .slt (BitVec.ofNat 32 j.val) 1696#32) (X (ix2 p j)) (Ideal.ofBits .f32 0x00000000#32) = _
  rw [lt_bit j.val j.isLt]
  split
  · exact select_one _ _
  · exact (select_zero _ _).trans Ideal.ofBits_zero_f32

theorem pay4_apply (i : grid0.Coords) (hi : (i 0).val = 48) (X2 : Vec Ideal S2048x1024 .f32) (X3 : Vec Ideal S16x2048 .f32)
    (a : Vec Ideal S16x1024 .f32) (p : Fin 16) (q : Fin 1024) :
    (k0_pay4 i X2 X3 a (ix2 p q) : EReal) = (a (ix2 p q) : EReal)
      + ∑ j : Fin 2048, (if j.val < 1696 then (X3 (ix2 p j) : EReal) else 0) * (if j.val < 1696 then (X2 (ix2 j q) : EReal) else 0) := by
  unfold k0_pay4 k0_pay2 k0_pay3
  simp only [shapeCast_self]
  rw [addf_apply, mm_apply]
  refine congrArg _ (Finset.sum_congr rfl fun j _ => ?_)
  rw [colMask_apply _ (edge_len i hi), rowMask_apply _ (edge_len i hi)]

/-! ## The final product with x, summed over the parameters -/

/-- A [1, 16, 1024] array broadcast to [26, 16, 1024] reads, at (i, p, q), its one leading slice at (p, q). -/
private theorem bcast_lead_apply {α : Type} (v : S1x16x1024.Idx → α) (i : Fin 26) (p : Fin 16) (q : Fin 1024) :
    broadcastTo S26x16x1024 v broadcasts_S1x16x1024_S26x16x1024 (ix3 i p q) = v (ix3 (0 : Fin 1) p q) := by
  refine broadcastTo_apply v broadcasts_S1x16x1024_S26x16x1024 (ix3 i p q) (ix3 (0 : Fin 1) p q) fun ax => ?_
  match ax with
  | ⟨0, _⟩ => rfl
  | ⟨1, _⟩ => rfl
  | ⟨2, _⟩ => rfl

theorem pay6_apply (X1 : Vec Ideal S26x16x1024 .f32) (a : Vec Ideal S16x1024 .f32) (i : Fin 26) (q : Fin 1024) :
    (k0_pay6 X1 a (ix2 i q) : EReal) = ∑ p : Fin 16, (X1 (ix3 i p q) : EReal) * (a (ix2 p q) : EReal) := by
  unfold k0_pay6
  simp only [shapeCast_self]
  refine (Ideal.multiReduction_add_single _ 0x00000000#32 reduces_S26x16x1024_S26x1024 (.inl rfl) rfl (ix2 i q)).trans ?_
  refine Finset.sum_congr rfl fun (p : Fin 16) _ => ?_
  have e : reduces_S26x16x1024_S26x1024.lift (ix2 i q) p = ix3 i p q := funext fun ax => Fin.ext (by
    match ax with
    | ⟨0, _⟩ => rfl
    | ⟨1, _⟩ => rfl
    | ⟨2, _⟩ => rfl)
  rw [e, mulf_apply, bcast_lead_apply, shapeCast_ab_1ab_apply]

end Cert.KernelIdeal.Hand

end
-- ==== Proof.KIBlocks.lean ====
/-
  The staging buffers' contents as entries of the argument arrays: the host transposes before the region make the
  one-hot window's array the transposed one-hot matrix, the coefficient window's the transposed table and x's window's
  the array with the trips axis last; block `t` of the first starts at row `2048 t`, of the second at column `2048 t`.
-/
import proofs.«137403_g48799418417398_cont_8to1_c_1139_16_alg».proof.Proof.KIData
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The block index of each cut window at a point, and how much of the block lies inside the array. -/
private theorem facts1 : ∀ t : Fin cfg0.N, win0_1.index t (0 : Fin 2) = t.val ∧ win0_1.index t (1 : Fin 2) = 0
    ∧ win0_1.xsize (grid0.coords t) (0 : Fin 2) = min 2048 (100000 - t.val * 2048)
    ∧ win0_1.xsize (grid0.coords t) (1 : Fin 2) = 1024 :=
  (by decide +kernel : ∀ t : Fin grid0.N, win0_1.index t (0 : Fin 2) = t.val ∧ win0_1.index t (1 : Fin 2) = 0
    ∧ win0_1.xsize (grid0.coords t) (0 : Fin 2) = min 2048 (100000 - t.val * 2048)
    ∧ win0_1.xsize (grid0.coords t) (1 : Fin 2) = 1024)

/-- The same for the coefficient window, whose blocks run along the columns. -/
private theorem facts2 : ∀ t : Fin cfg0.N, win0_2.index t (0 : Fin 2) = 0 ∧ win0_2.index t (1 : Fin 2) = t.val
    ∧ win0_2.xsize (grid0.coords t) (0 : Fin 2) = 16
    ∧ win0_2.xsize (grid0.coords t) (1 : Fin 2) = min 2048 (100000 - t.val * 2048) :=
  (by decide +kernel : ∀ t : Fin grid0.N, win0_2.index t (0 : Fin 2) = 0 ∧ win0_2.index t (1 : Fin 2) = t.val
    ∧ win0_2.xsize (grid0.coords t) (0 : Fin 2) = 16
    ∧ win0_2.xsize (grid0.coords t) (1 : Fin 2) = min 2048 (100000 - t.val * 2048))

/-- The one-hot window's array as the region finds it: the transposed one-hot matrix. -/
private theorem V_v0 (c : Dev nD) : (V m c main_v0 : S100000x1024.Idx → Elt F .f32)
    = transpose S100000x1024 [1, 0] (m ((c : Thread nD τ).loc main_arg1)) transposes_S1024x100000_S100000x1024_1_0 := by
  show StableHlo.after hostOps0 (fun b => m (c, b)) (Proc.devRef .tc main_v0) = _
  after_results

/-- The coefficient window's array as the region finds it: the transposed table. -/
private theorem V_v1 (c : Dev nD) : (V m c main_v1 : S16x100000.Idx → Elt F .f32)
    = transpose S16x100000 [1, 0] (m ((c : Thread nD τ).loc main_arg2)) transposes_S100000x16_S16x100000_1_0 := by
  show StableHlo.after hostOps0 (fun b => m (c, b)) (Proc.devRef .tc main_v1) = _
  after_results

/-- x's window's array as the region finds it: x with the trips axis moved last. -/
private theorem V_v2 (c : Dev nD) : (V m c main_v2 : S26x16x1024.Idx → Elt F .f32)
    = transpose S26x16x1024 [1, 2, 0] (m ((c : Thread nD τ).loc main_arg0)) transposes_S1024x26x16_S26x16x1024_1_2_0 := by
  show StableHlo.after hostOps0 (fun b => m (c, b)) (Proc.devRef .tc main_v2) = _
  after_results

/-- Row `j` of the one-hot buffer at point `t`, when user `2048 t + j` exists, is that user's column of the one-hot matrix. -/
theorem ohBuf_apply (c : Dev nD) (t : Fin cfg0.N) (d : S2048x1024.Idx → Elt F .f32) (j : Fin 2048) (q : Fin 1024)
    (h : t.val * 2048 + j.val < 100000) :
    ohBuf m c t d (ix2 j q) = m ((c : Thread nD τ).loc main_arg1) (ix2 q (⟨t.val * 2048 + j.val, h⟩ : Fin 100000)) := by
  obtain ⟨e0, e1, x0, x1⟩ := facts1 t
  have hj : j.val < win0_1.xsize (grid0.coords t) (0 : Fin 2) := by rw [x0]; have := j.isLt; omega
  have hq : q.val < win0_1.xsize (grid0.coords t) (1 : Fin 2) := by rw [x1]; exact q.isLt
  -- the index inside the part of the block the transfer moves
  let y : (win0_1.xblock (grid0.coords t)).Idx := fun a => match a with
    | ⟨0, _⟩ => ⟨j.val, hj⟩
    | ⟨1, _⟩ => ⟨q.val, hq⟩
  have hy : (ix2 j q : S2048x1024.Idx) = win0_1.xinj (grid0.coords t) y :=
    funext fun a => match a with | ⟨0, _⟩ => rfl | ⟨1, _⟩ => rfl
  unfold ohBuf
  rw [hy, Window.fill_xinj]
  show V m c main_v0 (((cfg0.win 1).blk t).view.emb y) = _
  have hidx : ((cfg0.win 1).blk t).view.emb y = (ix2 (⟨t.val * 2048 + j.val, h⟩ : Fin 100000) q : S100000x1024.Idx) := by
    funext a; apply Fin.ext
    match a with
    | ⟨0, _⟩ => show win0_1.index t (0 : Fin 2) * 2048 + 1 * j.val = t.val * 2048 + j.val; rw [e0]; omega
    | ⟨1, _⟩ => show win0_1.index t (1 : Fin 2) * 1024 + 1 * q.val = q.val; rw [e1]; omega
  rw [hidx, V_v0]
  exact transpose_ix2_apply _ _ _ _

/-- Column `j` of the coefficient buffer at point `t`, when user `2048 t + j` exists, is that user's row of the table. -/
theorem cfBuf_apply (c : Dev nD) (t : Fin cfg0.N) (d : S16x2048.Idx → Elt F .f32) (p : Fin 16) (j : Fin 2048)
    (h : t.val * 2048 + j.val < 100000) :
    cfBuf m c t d (ix2 p j) = m ((c : Thread nD τ).loc main_arg2) (ix2 (⟨t.val * 2048 + j.val, h⟩ : Fin 100000) p) := by
  obtain ⟨e0, e1, x0, x1⟩ := facts2 t
  have hp : p.val < win0_2.xsize (grid0.coords t) (0 : Fin 2) := by rw [x0]; exact p.isLt
  have hj : j.val < win0_2.xsize (grid0.coords t) (1 : Fin 2) := by rw [x1]; have := j.isLt; omega
  -- the index inside the part of the block the transfer moves
  let y : (win0_2.xblock (grid0.coords t)).Idx := fun a => match a with
    | ⟨0, _⟩ => ⟨p.val, hp⟩
    | ⟨1, _⟩ => ⟨j.val, hj⟩
  have hy : (ix2 p j : S16x2048.Idx) = win0_2.xinj (grid0.coords t) y :=
    funext fun a => match a with | ⟨0, _⟩ => rfl | ⟨1, _⟩ => rfl
  unfold cfBuf
  rw [hy, Window.fill_xinj]
  show V m c main_v1 (((cfg0.win 2).blk t).view.emb y) = _
  have hidx : ((cfg0.win 2).blk t).view.emb y = (ix2 p (⟨t.val * 2048 + j.val, h⟩ : Fin 100000) : S16x100000.Idx) := by
    funext a; apply Fin.ext
    match a with
    | ⟨0, _⟩ => show win0_2.index t (0 : Fin 2) * 16 + 1 * p.val = p.val; rw [e0]; omega
    | ⟨1, _⟩ => show win0_2.index t (1 : Fin 2) * 2048 + 1 * j.val = t.val * 2048 + j.val; rw [e1]; omega
  rw [hidx, V_v1]
  exact transpose_ix2_apply _ _ _ _

/-- x's window has one block, the whole array. -/
private theorem facts0 : ∀ t : Fin cfg0.N, win0_0.index t (0 : Fin 3) = 0 ∧ win0_0.index t (1 : Fin 3) = 0 ∧ win0_0.index t (2 : Fin 3) = 0 :=
  (by decide +kernel : ∀ t : Fin grid0.N, win0_0.index t (0 : Fin 3) = 0 ∧ win0_0.index t (1 : Fin 3) = 0 ∧ win0_0.index t (2 : Fin 3) = 0)

/-- x's buffer holds x with the trips axis moved last. -/
theorem xBuf_apply (c : Dev nD) (t : Fin cfg0.N) (i : Fin 26) (p : Fin 16) (q : Fin 1024) :
    xBuf m c t (ix3 i p q) = m ((c : Thread nD τ).loc main_arg0) (ix3 q i p) := by
  obtain ⟨e0, e1, e2⟩ := facts0 t
  unfold xBuf
  show V m c main_v2 (((cfg0.win 0).blk t).view.emb (ix3 i p q)) = _
  have hidx : ((cfg0.win 0).blk t).view.emb (ix3 i p q) = (ix3 i p q : S26x16x1024.Idx) := by
    funext a; apply Fin.ext
    match a with
    | ⟨0, _⟩ => show win0_0.index t (0 : Fin 3) * 26 + 1 * i.val = i.val; rw [e0]; omega
    | ⟨1, _⟩ => show win0_0.index t (1 : Fin 3) * 16 + 1 * p.val = p.val; rw [e1]; omega
    | ⟨2, _⟩ => show win0_0.index t (2 : Fin 3) * 1024 + 1 * q.val = q.val; rw [e2]; omega
  rw [hidx, V_v2]
  exact transpose_apply _ _ _ _ _ fun b => match b with | ⟨0, _⟩ => rfl | ⟨1, _⟩ => rfl | ⟨2, _⟩ => rfl

end Cert.KernelIdeal.Hand

end
-- ==== Proof.Spec.lean ====
/-
  The mathematics of the coefficient kernel, with no program in sight: the result as one function of the three
  arguments, and the sum over the 100000 users cut into 49 blocks of 2048 with the entries past the end dropped.
-/
import Mathlib.Algebra.BigOperators.Fin
import Mathlib.Algebra.BigOperators.Intervals
import Mathlib.Data.EReal.Basic
import Idealize.ShloMosaic.Lib.ValueIdx

noncomputable section

namespace Cert.CoefSpec

open Finset Idealize.ShloMosaic Idealize.ShloMosaic.ValueIdx

/-- `out[q, i] = Σ_p x[q, i, p] · Σ_u onehot[q, u] · coef[u, p]` on the extended reals. -/
def coefOut (x : Fin 1024 → Fin 26 → Fin 16 → EReal) (oh : Fin 1024 → Fin 100000 → EReal) (cf : Fin 100000 → Fin 16 → EReal)
    (q : Fin 1024) (i : Fin 26) : EReal :=
  ∑ p : Fin 16, x q i p * ∑ u : Fin 100000, oh q u * cf u p

/-- The same over arrays of the literal shapes: the one function both programs are shown to compute. -/
def coefArr (x0 : (⟨3, ![1024, 26, 16]⟩ : Shape).Idx → EReal) (x1 : (⟨2, ![1024, 100000]⟩ : Shape).Idx → EReal)
    (x2 : (⟨2, ![100000, 16]⟩ : Shape).Idx → EReal) : (⟨2, ![1024, 26]⟩ : Shape).Idx → EReal :=
  fun j => coefOut (fun q i p => x0 (ix3 q i p)) (fun q u => x1 (ix2 q u)) (fun u p => x2 (ix2 u p)) (j 0) (j 1)

theorem coefArr_apply (x0 : (⟨3, ![1024, 26, 16]⟩ : Shape).Idx → EReal) (x1 : (⟨2, ![1024, 100000]⟩ : Shape).Idx → EReal)
    (x2 : (⟨2, ![100000, 16]⟩ : Shape).Idx → EReal) (q : Fin 1024) (i : Fin 26) :
    coefArr x0 x1 x2 (ix2 q i) = coefOut (fun q i p => x0 (ix3 q i p)) (fun q u => x1 (ix2 q u)) (fun u p => x2 (ix2 u p)) q i := rfl

/-- A sum over 100000 terms is the sum over 49 blocks of 2048 of the terms whose number is below 100000. -/
theorem sum_blocks {M : Type*} [AddCommMonoid M] (f : ℕ → M) :
    ∑ k ∈ range 49, ∑ j : Fin 2048, (if k * 2048 + j.val < 100000 then f (k * 2048 + j.val) else 0)
      = ∑ u : Fin 100000, f u.val := by
  -- n full blocks of 2048 consecutive terms are the first n * 2048 terms
  have blocks : ∀ (g : ℕ → M) (n : ℕ),
      ∑ k ∈ range n, ∑ j : Fin 2048, g (k * 2048 + j.val) = ∑ u ∈ range (n * 2048), g u := by
    intro g n
    induction n with
    | zero => simp
    | succ n ih =>
      rw [Finset.sum_range_succ, ih, Nat.succ_mul, Finset.sum_range_add,
        Fin.sum_univ_eq_sum_range (fun j => g (n * 2048 + j)) 2048]
  -- with g = f below 100000 and 0 from there on: 49 * 2048 = 100000 + 352, and the last 352 terms vanish
  have h := blocks (fun u => if u < 100000 then f u else 0) 49
  rw [h, show 49 * 2048 = 100000 + 352 from rfl, Finset.sum_range_add]
  have tail : ∑ x ∈ range 352, (if 100000 + x < 100000 then f (100000 + x) else 0) = 0 :=
    Finset.sum_eq_zero fun x _ => if_neg (by omega)
  have head : ∑ u ∈ range 100000, (if u < 100000 then f u else 0) = ∑ u ∈ range 100000, f u :=
    Finset.sum_congr rfl fun u hu => if_pos (Finset.mem_range.mp hu)
  rw [tail, add_zero, head, Fin.sum_univ_eq_sum_range f 100000]

end Cert.CoefSpec

end
-- ==== Proof.KIValue.lean ====
/-
  The value of the kernel's program on the extended reals: after point `n` the accumulator holds, at parameter `p` and
  trip `q`, the sum over the first `n + 1` blocks of 2048 users of `coef[u, p] · onehot[q, u]` (users past the 100000th
  contributing nothing); the block stored at the last point is therefore the specification with its two axes swapped,
  the one write-back covers the whole result array, and the transpose after the region puts the axes back.
-/
import proofs.«137403_g48799418417398_cont_8to1_c_1139_16_alg».proof.Proof.KIBody
import proofs.«137403_g48799418417398_cont_8to1_c_1139_16_alg».proof.Proof.KIPayIdeal
import proofs.«137403_g48799418417398_cont_8to1_c_1139_16_alg».proof.Proof.KIBlocks
import proofs.«137403_g48799418417398_cont_8to1_c_1139_16_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx Cert.CoefSpec

variable (m : (ℓ : Loc nD τ sig) → Buf (Elt Ideal) ℓ) (ρ : Dev nD → PrngReg)

/-- The three arguments as launched, on core `c`. -/
abbrev a0 (c : Dev nD) : S1024x26x16.Idx → EReal := m ((c : Thread nD τ).loc main_arg0)
abbrev a1 (c : Dev nD) : S1024x100000.Idx → EReal := m ((c : Thread nD τ).loc main_arg1)
abbrev a2 (c : Dev nD) : S100000x16.Idx → EReal := m ((c : Thread nD τ).loc main_arg2)

/-- User `u`'s term of the inner sum at parameter `p` and trip `q`; zero for a user that does not exist. -/
def term (c : Dev nD) (p : Fin 16) (q : Fin 1024) (u : ℕ) : EReal :=
  if h : u < 100000 then a2 m c (ix2 (⟨u, h⟩ : Fin 100000) p) * a1 m c (ix2 q (⟨u, h⟩ : Fin 100000)) else 0

/-- Block `k`'s share of the inner sum. -/
def blockSum (c : Dev nD) (p : Fin 16) (q : Fin 1024) (k : ℕ) : EReal :=
  ∑ j : Fin 2048, (if k * 2048 + j.val < 100000 then term m c p q (k * 2048 + j.val) else 0)

/-- The grid's one coordinate is the point's number. -/
theorem coord0 : ∀ t : Fin cfg0.N, ((grid0.coords t) 0).val = t.val :=
  (by decide +kernel : ∀ t : Fin grid0.N, ((grid0.coords t) 0).val = t.val)

/-- Before the last point every row of the block is a user: the block product is the block's share. -/
theorem block_plain (c : Dev nD) (t : Fin cfg0.N) (ht : t.val < 48) (p : Fin 16) (q : Fin 1024) :
    ∑ j : Fin 2048, (cfBuf m c t zf (ix2 p j) : EReal) * (ohBuf m c t zf (ix2 j q) : EReal) = blockSum m c p q t.val := by
  unfold blockSum
  refine Finset.sum_congr rfl fun j _ => ?_
  have hj : j.val < 2048 := j.isLt
  have h : t.val * 2048 + j.val < 100000 := by omega
  rw [if_pos h, cfBuf_apply m c t zf p j h, ohBuf_apply m c t zf j q h]
  unfold term; rw [dif_pos h]

/-- At the last point rows from 1696 on are no users: the masked product is the block's share. -/
theorem block_masked (c : Dev nD) (t : Fin cfg0.N) (ht : t.val = 48) (p : Fin 16) (q : Fin 1024) :
    ∑ j : Fin 2048, (if j.val < 1696 then (cfBuf m c t zf (ix2 p j) : EReal) else 0) * (if j.val < 1696 then (ohBuf m c t zf (ix2 j q) : EReal) else 0)
      = blockSum m c p q t.val := by
  unfold blockSum
  refine Finset.sum_congr rfl fun j _ => ?_
  by_cases hj : j.val < 1696
  · have h : t.val * 2048 + j.val < 100000 := by omega
    rw [if_pos hj, if_pos hj, if_pos h, cfBuf_apply m c t zf p j h, ohBuf_apply m c t zf j q h]
    unfold term; rw [dif_pos h]
  · have h : ¬t.val * 2048 + j.val < 100000 := by omega
    rw [if_neg hj, if_neg hj, if_neg h, mul_zero]

/-- THE ACCUMULATOR after point `n`: the first `n + 1` blocks' shares. -/
theorem acc_apply (c : Dev nD) : ∀ (n : ℕ) (hn : n < cfg0.N) (p : Fin 16) (q : Fin 1024),
    (accAt m c n hn (ix2 p q) : EReal) = ∑ k ∈ Finset.range (n + 1), blockSum m c p q k
  | 0, hn, p, q => by
    rw [accAt_zero, pay5_apply, pay1_apply, zero_add, Finset.sum_range_one]
    exact block_plain m c ⟨0, hn⟩ (show (0 : ℕ) < 48 by decide) p q
  | n + 1, hn, p, q => by
    have hN : n + 1 < 49 := lt_of_lt_of_eq hn N_0
    rw [Finset.sum_range_succ, ← acc_apply c n (Nat.lt_of_succ_lt hn) p q]
    by_cases h : n + 1 < 48
    · rw [accAt_mid m c n hn h, pay5_apply]
      exact congrArg (_ + ·) (block_plain m c ⟨n + 1, hn⟩ h p q)
    · have h48 : n + 1 = 48 := by omega
      rw [accAt_last m c n hn h, pay4_apply _ ((coord0 ⟨n + 1, hn⟩).trans h48)]
      exact congrArg (_ + ·) (block_masked m c ⟨n + 1, hn⟩ h48 p q)

/-- THE STORED BLOCK is the specification with its axes swapped. -/
theorem outLast_apply (c : Dev nD) (i : Fin 26) (q : Fin 1024) :
    (outLast m c (ix2 i q) : EReal) = coefArr (a0 m c) (a1 m c) (a2 m c) (ix2 q i) := by
  rw [coefArr_apply]; unfold outLast coefOut
  rw [pay6_apply]
  refine Finset.sum_congr rfl fun p _ => ?_
  have hx : (xBuf m c tLast (ix3 i p q) : EReal) = a0 m c (ix3 q i p) := xBuf_apply m c tLast i p q
  have ha : (accAt m c 48 (by decide) (ix2 p q) : EReal) = ∑ u : Fin 100000, a1 m c (ix2 q u) * a2 m c (ix2 u p) := by
    rw [acc_apply m c 48 (by decide) p q]
    unfold blockSum
    rw [sum_blocks (term m c p q)]
    refine Finset.sum_congr rfl fun u _ => ?_
    unfold term; rw [dif_pos u.isLt, mul_comm]
  rw [hx, ha]

/-! ## The result array after the run -/

/-- The result's one block is the whole array. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- What the last point writes back is the stored block, read through the whole-array block. -/
theorem flushed3_eq (c : Dev nD) (t : Fin cfg0.N) (hf : (cfg0.win 3).flush t = true) :
    (dats m 0 c).flushed 3 t = ((cfg0.win 3).blk t).view.read (Elt Ideal) (outLast m c) := by
  show (cfg0.win 3).cut (grid0.coords t) ((dats m 0 c).after 3 t) = _
  rw [after_3]
  obtain ⟨e0, e1⟩ := idx3 t
  funext j
  show outLast m c ((cfg0.win 3).xinj (grid0.coords t) j) = outLast m c (((cfg0.win 3).blk t).view.emb j)
  refine congrArg (outLast m c) (funext fun a => Fin.ext ?_)
  match a with
  | ⟨0, _⟩ => show (j 0).val = win0_3.index t (0 : Fin 2) * 26 + 1 * (j 0).val; omega
  | ⟨1, _⟩ => show (j 1).val = win0_3.index t (1 : Fin 2) * 1024 + 1 * (j 1).val; omega

/-- Every index of the result array is in the last point's block. -/
theorem cover3 (i : S26x1024.Idx) : ∃ t : Fin cfg0.N, (cfg0.win 3).flush t = true ∧ i ∈ ((cfg0.win 3).blk t).view.set := by
  refine ⟨tLast, (flush0_3 tLast).mpr (by decide), ?_⟩
  show i ∈ ((View.whole main_v3).slice (win0_3.rect tLast)).set
  rw [View.set_slice_whole, Rect.mem_set_unit]
  obtain ⟨e0, e1⟩ := idx3 tLast
  intro a
  match a with
  | ⟨0, _⟩ =>
    show win0_3.index tLast (0 : Fin 2) * 26 ≤ (i 0).val ∧ (i 0).val < win0_3.index tLast (0 : Fin 2) * 26 + 26
    have : (i 0).val < 26 := (i 0).isLt
    omega
  | ⟨1, _⟩ =>
    show win0_3.index tLast (1 : Fin 2) * 1024 ≤ (i 1).val ∧ (i 1).val < win0_3.index tLast (1 : Fin 2) * 1024 + 1024
    have : (i 1).val < 1024 := (i 1).isLt
    omega

/-- The result array after the run is the stored block. -/
theorem final3 (c : Dev nD) : (dats m 0 c).arrAt 3 cfg0.N = outLast m c :=
  (dats m 0 c).arrAt_eq_of_cover 3 (outLast m c) (flushed3_eq m c) (cover3)

/-- The program's result: the transpose after the region, of the array the region leaves. -/
theorem tail_v4 (c : Dev nD) :
    Pipeline.afterTail₀ cfgs (dats m) 0 (V0 m) [hostOps1] c main_v4
      = transpose S1024x26 [1, 0] (outLast m c) transposes_S26x1024_S1024x26_1_0 := by
  unfold Pipeline.afterTail₀
  show StableHlo.after hostOps1 _ (Proc.devRef .tc main_v4) = _
  after_results
  exact congrArg (fun x => transpose S1024x26 [1, 0] x transposes_S26x1024_S1024x26_1_0)
    ((Pipeline.withArrays_arr spec0 launch0.win.arr_inj c _ _ 3).trans (final3 m c))

/-- The program's result is the specification of its three arguments. -/
theorem v4_eq (c : Dev nD) :
    Pipeline.afterTail₀ cfgs (dats m) 0 (V0 m) [hostOps1] c main_v4 = coefArr (a0 m c) (a1 m c) (a2 m c) := by
  rw [tail_v4]
  funext j
  obtain ⟨q, i, rfl⟩ : ∃ (q : Fin 1024) (i : Fin 26), j = ix2 q i := ⟨j 0, j 1, eq_ix2 j⟩
  rw [← outLast_apply m c i q]
  exact transpose_apply _ _ _ (ix2 q i) (ix2 i q) (fun b => by match b with | ⟨0, _⟩ => rfl | ⟨1, _⟩ => rfl)

/-- THE RUN, READ: every weakly fair execution terminates with the result at the specification of the arguments and
    the arguments unchanged. -/
theorem kernel_run : θ_run defs (onTc (τ := τ) (main (F := Ideal))) ⟨m, fun _ => 0, ρ⟩ (fun r => ∀ c : Dev nD,
      r.2.mem ((c.tc : Thread nD τ).loc main_v4) = coefArr (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (v4_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Hand

end
-- ==== Proof.RefValue.lean ====
/-
  The reference's result is the specification: its two contractions, read at an index, are the sum over the users
  inside the sum over the parameters, and its two reshapes only add and drop an axis of extent one.
-/
import proofs.«137403_g48799418417398_cont_8to1_c_1139_16_alg».proof.Proof.Gen.ReferenceIdeal.Run
import proofs.«137403_g48799418417398_cont_8to1_c_1139_16_alg».proof.Proof.Gen.ReferenceIdeal.Read
import proofs.«137403_g48799418417398_cont_8to1_c_1139_16_alg».proof.Proof.Spec

noncomputable section

namespace Cert.ReferenceIdeal.RefValue

open Cert.ReferenceIdeal Cert.ReferenceIdeal.Read Idealize.ShloMosaic Idealize.ShloMosaic.ValueIdx Cert.CoefSpec

/-- The inner contraction read at (q, p): the sum over the users. -/
private theorem inner_apply (x1 : (⟨S1024x100000, .f32⟩ : BufTy).Contents (Elt Ideal))
    (x2 : (⟨S100000x16, .f32⟩ : BufTy).Contents (Elt Ideal)) (q : Fin 1024) (p : Fin 16) :
    val_main_v0 (F := Ideal) x1 x2 (ix2 q p) = ∑ u : Fin 100000, x1 (ix2 q u) * x2 (ix2 u p) := by
  refine (val_main_v0_apply x1 x2 (ix2 q p)).trans ?_
  refine Finset.sum_congr rfl fun u _ => ?_
  have e1 : lidx_main_v0 (ix2 q p) u = ix2 q u := funext fun a => Fin.ext (by
    match a with
    | ⟨0, _⟩ => rfl
    | ⟨1, _⟩ => rfl)
  have e2 : ridx_main_v0 (ix2 q p) u = ix2 u p := funext fun a => Fin.ext (by
    match a with
    | ⟨0, _⟩ => rfl
    | ⟨1, _⟩ => rfl)
  rw [e1, e2]

/-- The second reshape drops the axis of extent one: the outer contraction's left operand is read at (q, i, p). -/
private theorem lidx_eq (q : Fin 1024) (i : Fin 26) (p : Fin 16) :
    lidx_main_v2 (idx_main_v3 (ix2 q i)) p = ix3 q i p := funext fun a => Fin.ext (by
  match a with
  | ⟨0, _⟩ => show (q.val * 26 + i.val) / 26 = q.val; omega
  | ⟨1, _⟩ => show (q.val * 26 + i.val) / 1 % 26 = i.val; omega
  | ⟨2, _⟩ => rfl)

/-- The first reshape adds an axis of extent one: the outer contraction's right operand is the inner one at (q, p). -/
private theorem ridx_eq (q : Fin 1024) (i : Fin 26) (p : Fin 16) :
    idx_main_v1 (ridx_main_v2 (idx_main_v3 (ix2 q i)) p) = ix2 q p := funext fun a => Fin.ext (by
  match a with
  | ⟨0, _⟩ => show (((q.val * 26 + i.val) / 26 * 16 + p.val) * 1 + 0) / 16 = q.val; omega
  | ⟨1, _⟩ => show (((q.val * 26 + i.val) / 26 * 16 + p.val) * 1 + 0) % 16 = p.val; omega)

/-- The reference's last stage, at `Ideal`, is `coefArr` of its three arguments. -/
theorem ref_eq (x0 : (⟨S1024x26x16, .f32⟩ : BufTy).Contents (Elt Ideal)) (x1 : (⟨S1024x100000, .f32⟩ : BufTy).Contents (Elt Ideal))
    (x2 : (⟨S100000x16, .f32⟩ : BufTy).Contents (Elt Ideal)) :
    val_main_v3 (F := Ideal) x0 x1 x2 = coefArr x0 x1 x2 := by
  funext j
  obtain ⟨q, i, rfl⟩ : ∃ (q : Fin 1024) (i : Fin 26), j = ix2 q i := ⟨j 0, j 1, eq_ix2 j⟩
  rw [coefArr_apply, val_main_v3_apply, val_main_v2_apply]
  unfold coefOut
  refine Finset.sum_congr rfl fun p _ => ?_
  rw [lidx_eq q i p, val_main_v1_apply, ridx_eq q i p, inner_apply x1 x2 q p]

end Cert.ReferenceIdeal.RefValue

end
-- ==== Proof.lean ====
/-
  The certificate of the coefficient kernel: `out[q, i] = Σ_p x[q, i, p] · Σ_u onehot[q, u] · coef[u, p]`.

  The kernel sweeps the 100000 users in 49 blocks of 2048, adding the product of a coefficient block and a one-hot
  block to an accumulator it keeps in scratch, the last block cut at the arrays' end and its overhang replaced by zero
  before it is multiplied; at the last point it multiplies the accumulator by x and sums over the sixteen parameters.
  The reference contracts the users first and the parameters second. On the extended reals the two are one function:
  the kernel's sum over the users is the reference's, cut into blocks and its factors swapped — sums regrouped and
  products commuted, nothing distributed — and the outer sum is the same sum, term by term.

  The three frames: each of the two printed kernel programs terminates at every grid point whatever its buffers hold
  (its conditionals read the grid coordinate only), and the reference is a straight line of host operations.
-/
import proofs.«137403_g48799418417398_cont_8to1_c_1139_16_alg».proof.Defs
import proofs.«137403_g48799418417398_cont_8to1_c_1139_16_alg».proof.Proof.Gen.Kernel
import proofs.«137403_g48799418417398_cont_8to1_c_1139_16_alg».proof.Proof.Gen.KernelIdeal
import proofs.«137403_g48799418417398_cont_8to1_c_1139_16_alg».proof.Proof.Gen.ReferenceIdeal
import proofs.«137403_g48799418417398_cont_8to1_c_1139_16_alg».proof.Proof.Gen.ReferenceIdeal.Run
import proofs.«137403_g48799418417398_cont_8to1_c_1139_16_alg».proof.Proof.Gen.ReferenceIdeal.Read
import proofs.«137403_g48799418417398_cont_8to1_c_1139_16_alg».proof.Proof.Gen.Pre_finite_inputs
import proofs.«137403_g48799418417398_cont_8to1_c_1139_16_alg».proof.Proof.KBody
import proofs.«137403_g48799418417398_cont_8to1_c_1139_16_alg».proof.Proof.KIValue
import proofs.«137403_g48799418417398_cont_8to1_c_1139_16_alg».proof.Proof.RefValue
import Idealize.ShloMosaic.Adequacy
import Idealize.ShloMosaic.Init

noncomputable section

namespace Cert.Proof

open Idealize.ShloMosaic Idealize.SL.Sem

/-- The word-level kernel program runs and leaves its arguments as they were. -/
theorem frame_k : Cert.frame_Kernel := fun m ρ _ => Cert.Kernel.Hand.frame (F := Bits) m ρ

/-- So does the idealized one. -/
theorem frame_ki : Cert.frame_KernelIdeal := fun m ρ _ => Cert.KernelIdeal.Hand.frame (F := Ideal) m ρ

/-- The reference's run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification of the arguments they agree on. -/
theorem algebraic : Cert.algebraic_KernelIdeal_ReferenceIdeal := by
  intro m ρ m' ρ' _ hagree
  refine ⟨fun c => Cert.CoefSpec.coefArr (Cert.KernelIdeal.Hand.a0 m c) (Cert.KernelIdeal.Hand.a1 m c) (Cert.KernelIdeal.Hand.a2 m c),
    Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
